-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1000 : Shape := ⟨2, ![131072, 1000]⟩
abbrev S131072 : Shape := ⟨1, ![131072]⟩
abbrev S30 : Shape := ⟨1, ![30]⟩
abbrev S_ : Shape := ⟨0, ![]⟩

class Facts : Prop where
  bcast_S_S131072x1000 : S_.BroadcastsInDim S131072x1000 (![] : Fin 0 → Fin S131072x1000.rank)
  reducesTo_S131072x1000_S_d0_1 : S131072x1000.ReducesTo [0, 1] S_
  h_S_ : 0 < S_.numel
  bcast_S_S30 : S_.BroadcastsInDim S30 (![] : Fin 0 → Fin S30.rank)
  reducesTo_S30_S_d0 : S30.ReducesTo [0] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x1000 .f32) (main_arg1 : IVec S131072 32) (main_arg2 : FVec F S30 .f32) : IVec S_ 1 :=
  let main_v0 : FVec F S131072x1000 .f32 := Host.absf main_arg0
  let main_cst : FVec F S_ .f32 := constant S_ .f32 0x7F800000#32
  let main_v1 : FVec F S131072x1000 .f32 := broadcastInDim S131072x1000 ![] bcast_S_S131072x1000 main_cst
  let main_v2 : IVec S131072x1000 1 := cmpf .olt main_v0 main_v1
  let main_c : IVec S_ 1 := constantI S_ 1 1#1
  let main_v3 : IVec S_ 1 := (fun x v => Host.reduce IntOp.andi x v reducesTo_S131072x1000_S_d0_1 h_S_) main_v2 main_c
  let main_v4 : FVec F S30 .f32 := Host.absf main_arg2
  let main_cst_0 : FVec F S_ .f32 := constant S_ .f32 0x7F800000#32
  let main_v5 : FVec F S30 .f32 := broadcastInDim S30 ![] bcast_S_S30 main_cst_0
  let main_v6 : IVec S30 1 := cmpf .olt main_v4 main_v5
  let main_c_1 : IVec S_ 1 := constantI S_ 1 1#1
  let main_v7 : IVec S_ 1 := (fun x v => Host.reduce IntOp.andi x v reducesTo_S30_S_d0 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 32 := constantI S_ 32 1000#32
  let main_v11 : IVec S131072 32 := broadcastInDim S131072 ![] bcast_S_S131072 main_c_3
  let main_v12 : IVec S131072 1 := cmpi .slt main_arg1 main_v11
  let main_v13 : IVec S131072 1 := andi main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  main_v15
-- ==== Kernel.lean ====
abbrev S131072x1000 : Shape := ⟨2, ![131072, 1000]⟩
abbrev S131072 : Shape := ⟨1, ![131072]⟩
abbrev S30 : Shape := ⟨1, ![30]⟩
abbrev S1024x1000 : Shape := ⟨2, ![1024, 1000]⟩
abbrev S1024 : Shape := ⟨1, ![1024]⟩
abbrev S1024x1 : Shape := ⟨2, ![1024, 1]⟩
abbrev S_ : Shape := ⟨0, ![]⟩
abbrev S131072x1 : Shape := ⟨2, ![131072, 1]⟩
abbrev S1x30 : Shape := ⟨2, ![1, 30]⟩
abbrev S131072x30 : Shape := ⟨2, ![131072, 30]⟩

abbrev nBuf : Space → Nat
  | .hbm => 74
  | .vmem => 8
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S30, .f32⟩
  | .hbm, ⟨3, _⟩ => ⟨S131072, .f32⟩
  | .hbm, ⟨4, _⟩ => ⟨S131072, .f32⟩
  | .hbm, ⟨5, _⟩ => ⟨S_, .f32⟩
  | .hbm, ⟨6, _⟩ => ⟨S131072, .f32⟩
  | .hbm, ⟨7, _⟩ => ⟨S131072, .f32⟩
  | .hbm, ⟨8, _⟩ => ⟨S_, .f32⟩
  | .hbm, ⟨9, _⟩ => ⟨S131072, .f32⟩
  | .hbm, ⟨10, _⟩ => ⟨S131072, .f32⟩
  | .hbm, ⟨11, _⟩ => ⟨S131072, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S30, .i32⟩
  | .hbm, ⟨21, _⟩ => ⟨S131072x1, .i32⟩
  | .hbm, ⟨22, _⟩ => ⟨S1x30, .i32⟩
  | .hbm, ⟨23, _⟩ => ⟨S131072x30, .i32⟩
  | .hbm, ⟨24, _⟩ => ⟨S131072x30, .i32⟩
  | .hbm, ⟨25, _⟩ => ⟨S131072x30, .i1⟩
  | .hbm, ⟨26, _⟩ => ⟨S131072x30, .f32⟩
  | .hbm, ⟨27, _⟩ => ⟨S_, .f32⟩
  | .hbm, ⟨28, _⟩ => ⟨S30, .f32⟩
  | .hbm, ⟨29, _⟩ => ⟨S_, .f32⟩
  | .hbm, ⟨30, _⟩ => ⟨S30, .f32⟩
  | .hbm, ⟨31, _⟩ => ⟨S30, .i1⟩
  | .hbm, ⟨32, _⟩ => ⟨S_, .f32⟩
  | .hbm, ⟨33, _⟩ => ⟨S30, .f32⟩
  | .hbm, ⟨34, _⟩ => ⟨S30, .f32⟩
  | .hbm, ⟨35, _⟩ => ⟨S_, .f32⟩
  | .hbm, ⟨36, _⟩ => ⟨S30, .f32⟩
  | .hbm, ⟨37, _⟩ => ⟨S30, .f32⟩
  | .hbm, ⟨38, _⟩ => ⟨S30, .f32⟩
  | .hbm, ⟨39, _⟩ => ⟨S30, .f32⟩
  | .hbm, ⟨40, _⟩ => ⟨S_, .f32⟩
  | .hbm, ⟨41, _⟩ => ⟨S30, .f32⟩
  | .hbm, ⟨42, _⟩ => ⟨S30, .f32⟩
  | .hbm, ⟨43, _⟩ => ⟨S_, .f32⟩
  | .hbm, ⟨44, _⟩ => ⟨S30, .f32⟩
  | .hbm, ⟨45, _⟩ => ⟨S30, .f32⟩
  | .hbm, ⟨46, _⟩ => ⟨S_, .f32⟩
  | .hbm, ⟨47, _⟩ => ⟨S_, .f32⟩
  | .hbm, ⟨48, _⟩ => ⟨S30, .f32⟩
  | .hbm, ⟨49, _⟩ => ⟨S30, .f32⟩
  | .hbm, ⟨50, _⟩ => ⟨S30, .i32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072, .f32⟩
  | .hbm, ⟨63, _⟩ => ⟨S_, .f32⟩
  | .hbm, ⟨64, _⟩ => ⟨S_, .f32⟩
  | .hbm, ⟨65, _⟩ => ⟨S131072, .f32⟩
  | .hbm, ⟨66, _⟩ => ⟨S131072, .f32⟩
  | .hbm, ⟨67, _⟩ => ⟨S131072, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024, .i32⟩
  | .local _ .vmem, ⟨3, _⟩ => ⟨S1024, .i32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | _, _ => ⟨S131072x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_v27 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_c_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_13 : Ref sig .tc := ⟨.hbm, 68, rfl⟩
abbrev main_v42 : Ref sig .tc := ⟨.hbm, 69, rfl⟩
abbrev main_cst_14 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x1000_S1024x1000_0_0 : ∀ a, (![0, 0] : Fin 2 → Nat) a + S1024x1000.size a ≤ S1024x1000.size a
  h_S1024x1000 : 0 < S1024x1000.numel
  inb_S1024_S1024_0 : ∀ a, (![0] : Fin 1 → Nat) a + S1024.size a ≤ S1024.size a
  h_S1024 : 0 < S1024.numel
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  shapeCasts_S1024x1_S1024 : S1024x1.ShapeCasts S1024
  bcast_S_S131072 : S_.BroadcastsInDim S131072 (![] : Fin 0 → Fin S131072.rank)
  bcast_S131072_S131072x1_0 : S131072.BroadcastsInDim S131072x1 (![0] : Fin 1 → Fin S131072x1.rank)
  bcast_S30_S1x30_1 : S30.BroadcastsInDim S1x30 (![1] : Fin 1 → Fin S1x30.rank)
  bcast_S131072x1_S131072x30_0_1 : S131072x1.BroadcastsInDim S131072x30 (![0, 1] : Fin 2 → Fin S131072x30.rank)
  bcast_S1x30_S131072x30_0_1 : S1x30.BroadcastsInDim S131072x30 (![0, 1] : Fin 2 → Fin S131072x30.rank)
  reducesTo_S131072x30_S30_d0 : S131072x30.ReducesTo [0] S30
  h_S_ : 0 < S_.numel
  bcast_S_S30 : S_.BroadcastsInDim S30 (![] : Fin 0 → Fin S30.rank)
  natLt_1_32 : 1 < 32
  reducesTo_S30_S_d0 : S30.ReducesTo [0] S_
  reducesTo_S131072_S_d0 : S131072.ReducesTo [0] S_
  gather_S30_S131072x1_S131072_n_0_n_n_0_1_1_wf : GatherDims.WF S30 S131072x1 S131072 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S131072x1000.size a
  hwx0_0 : ∀ i : grid0.Coords, EltTy.bits .f32 = 32 ∨ (Rect.block (s := S131072x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S131072.size a
  hwx0_1 : ∀ i : grid0.Coords, EltTy.bits .i32 = 32 ∨ (Rect.block (s := S131072) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S131072.size a
  hwx0_2 : ∀ i : grid0.Coords, EltTy.bits .f32 = 32 ∨ (Rect.block (s := S131072) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S131072.size a
  hwx0_3 : ∀ i : grid0.Coords, EltTy.bits .f32 = 32 ∨ (Rect.block (s := S131072) S1024.size (cc0_transform_3 i) (hinb0_3 i)).WholeWords (EltTy.packing .f32)

variable [Facts₀]

def gather_S30_S131072x1_S131072_n_0_n_n_0_1_1 : GatherDims S30 S131072x1 S131072 where
  offsetDims := []
  collapsedSliceDims := [0]
  operandBatchingDims := []
  startIndicesBatchingDims := []
  startIndexMap := [0]
  indexVectorDim := 1
  sliceSizes := ![1]
  wf := gather_S30_S131072x1_S131072_n_0_n_n_0_1_1_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x1000 : Shape := ⟨2, ![131072, 1000]⟩
abbrev S131072 : Shape := ⟨1, ![131072]⟩
abbrev S30 : Shape := ⟨1, ![30]⟩
abbrev S_ : Shape := ⟨0, ![]⟩
abbrev S131072x1 : Shape := ⟨2, ![131072, 1]⟩
abbrev S131072x2 : Shape := ⟨2, ![131072, 2]⟩

abbrev nBuf : Space → Nat
  | .hbm => 120
  | .vmem => 0
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S30, .f32⟩
  | .hbm, ⟨3, _⟩ => ⟨S_, .f32⟩
  | .hbm, ⟨4, _⟩ => ⟨S131072, .f32⟩
  | .hbm, ⟨5, _⟩ => ⟨S_, .f32⟩
  | .hbm, ⟨6, _⟩ => ⟨S131072, .f32⟩
  | .hbm, ⟨7, _⟩ => ⟨S131072, .f32⟩
  | .hbm, ⟨8, _⟩ => ⟨S131072x1, .f32⟩
  | .hbm, ⟨9, _⟩ => ⟨S131072x1000, .f32⟩
  | .hbm, ⟨10, _⟩ => ⟨S131072x1000, .f32⟩
  | .hbm, ⟨11, _⟩ => ⟨S131072x1000, .f32⟩
  | .hbm, ⟨12, _⟩ => ⟨S_, .f32⟩
  | .hbm, ⟨13, _⟩ => ⟨S131072, .f32⟩
  | .hbm, ⟨14, _⟩ => ⟨S131072x1, .f32⟩
  | .hbm, ⟨15, _⟩ => ⟨S131072x1000, .f32⟩
  | .hbm, ⟨16, _⟩ => ⟨S131072x1000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S131072x1000, .f32⟩
  | .hbm, ⟨21, _⟩ => ⟨S131072x1000, .f32⟩
  | .hbm, ⟨22, _⟩ => ⟨S_, .f32⟩
  | .hbm, ⟨23, _⟩ => ⟨S131072x1000, .f32⟩
  | .hbm, ⟨24, _⟩ => ⟨S131072x1000, .f32⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072x1, .i32⟩
  | .hbm, ⟨42, _⟩ => ⟨S131072x2, .i32⟩
  | .hbm, ⟨43, _⟩ => ⟨S131072, .f32⟩
  | .hbm, ⟨44, _⟩ => ⟨S_, .f32⟩
  | .hbm, ⟨45, _⟩ => ⟨S131072, .f32⟩
  | .hbm, ⟨46, _⟩ => ⟨S131072, .f32⟩
  | .hbm, ⟨47, _⟩ => ⟨S131072, .f32⟩
  | .hbm, ⟨48, _⟩ => ⟨S_, .f32⟩
  | .hbm, ⟨49, _⟩ => ⟨S131072, .f32⟩
  | .hbm, ⟨50, _⟩ => ⟨S131072, .f32⟩
  | .hbm, ⟨51, _⟩ => ⟨S131072, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S_, .f32⟩
  | .hbm, ⟨61, _⟩ => ⟨S30, .f32⟩
  | .hbm, ⟨62, _⟩ => ⟨S_, .i32⟩
  | .hbm, ⟨63, _⟩ => ⟨S131072, .i32⟩
  | .hbm, ⟨64, _⟩ => ⟨S131072, .i1⟩
  | .hbm, ⟨65, _⟩ => ⟨S_, .i32⟩
  | .hbm, ⟨66, _⟩ => ⟨S131072, .i32⟩
  | .hbm, ⟨67, _⟩ => ⟨S131072, .i32⟩
  | .hbm, ⟨68, _⟩ => ⟨S131072, .i32⟩
  | .hbm, ⟨69, _⟩ => ⟨S131072x1, .i32⟩
  | .hbm, ⟨70, _⟩ => ⟨S_, .f32⟩
  | .hbm, ⟨71, _⟩ => ⟨S131072, .f32⟩
  | .hbm, ⟨72, _⟩ => ⟨S30, .f32⟩
  | .hbm, ⟨73, _⟩ => ⟨S_, .f32⟩
  | .hbm, ⟨74, _⟩ => ⟨S30, .f32⟩
  | .hbm, ⟨75, _⟩ => ⟨S30, .i1⟩
  | .hbm, ⟨76, _⟩ => ⟨S_, .f32⟩
  | .hbm, ⟨77, _⟩ => ⟨S30, .f32⟩
  | .hbm, ⟨78, _⟩ => ⟨S30, .f32⟩
  | .hbm, ⟨79, _⟩ => ⟨S_, .f32⟩
  | .hbm, ⟨80, _⟩ => ⟨S30, .f32⟩
  | .hbm, ⟨81, _⟩ => ⟨S30, .f32⟩
  | .hbm, ⟨82, _⟩ => ⟨S30, .f32⟩
  | .hbm, ⟨83, _⟩ => ⟨S30, .f32⟩
  | .hbm, ⟨84, _⟩ => ⟨S_, .f32⟩
  | .hbm, ⟨85, _⟩ => ⟨S30, .f32⟩
  | .hbm, ⟨86, _⟩ => ⟨S30, .f32⟩
  | .hbm, ⟨87, _⟩ => ⟨S_, .f32⟩
  | .hbm, ⟨88, _⟩ => ⟨S30, .f32⟩
  | .hbm, ⟨89, _⟩ => ⟨S30, .f32⟩
  | .hbm, ⟨90, _⟩ => ⟨S_, .f32⟩
  | .hbm, ⟨91, _⟩ => ⟨S_, .f32⟩
  | .hbm, ⟨92, _⟩ => ⟨S30, .f32⟩
  | .hbm, ⟨93, _⟩ => ⟨S30, .f32⟩
  | .hbm, ⟨94, _⟩ => ⟨S30, .i32⟩
  | .hbm, ⟨95, _⟩ => ⟨S_, .i32⟩
  | .hbm, ⟨96, _⟩ => ⟨S_, .i32⟩
  | .hbm, ⟨97, _⟩ => ⟨S_, .f32⟩
  | .hbm, ⟨98, _⟩ => ⟨S_, .i32⟩
  | .hbm, ⟨99, _⟩ => ⟨S131072, .i32⟩
  | .hbm, ⟨100, _⟩ => ⟨S131072, .i1⟩
  | .hbm, ⟨101, _⟩ => ⟨S_, .i32⟩
  | .hbm, ⟨102, _⟩ => ⟨S131072, .i32⟩
  | .hbm, ⟨103, _⟩ => ⟨S131072, .i32⟩
  | .hbm, ⟨104, _⟩ => ⟨S131072, .i32⟩
  | .hbm, ⟨105, _⟩ => ⟨S131072x1, .i32⟩
  | .hbm, ⟨106, _⟩ => ⟨S131072, .f32⟩
  | .hbm, ⟨107, _⟩ => ⟨S_, .f32⟩
  | .hbm, ⟨108, _⟩ => ⟨S_, .f32⟩
  | .hbm, ⟨109, _⟩ => ⟨S131072, .f32⟩
  | .hbm, ⟨110, _⟩ => ⟨S131072, .f32⟩
  | .hbm, ⟨111, _⟩ => ⟨S131072, .f32⟩
  | .hbm, ⟨112, _⟩ => ⟨S131072, .f32⟩
  | .hbm, ⟨113, _⟩ => ⟨S131072, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S131072x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_c_10 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_c_12 : Ref sig .tc := ⟨.hbm, 62, rfl⟩
abbrev main_v35 : Ref sig .tc := ⟨.hbm, 63, rfl⟩
abbrev main_v36 : Ref sig .tc := ⟨.hbm, 64, rfl⟩
abbrev main_c_13 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_14 : Ref sig .tc := ⟨.hbm, 70, rfl⟩
abbrev main_v41 : Ref sig .tc := ⟨.hbm, 71, rfl⟩
abbrev main_v42 : Ref sig .tc := ⟨.hbm, 72, rfl⟩
abbrev main_cst_15 : Ref sig .tc := ⟨.hbm, 73, rfl⟩
abbrev main_v43 : Ref sig .tc := ⟨.hbm, 74, rfl⟩
abbrev main_v44 : Ref sig .tc := ⟨.hbm, 75, rfl⟩
abbrev main_cst_16 : Ref sig .tc := ⟨.hbm, 76, rfl⟩
abbrev main_v45 : Ref sig .tc := ⟨.hbm, 77, rfl⟩
abbrev main_v46 : Ref sig .tc := ⟨.hbm, 78, rfl⟩
abbrev main_cst_17 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_18 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_v54 : Ref sig .tc := ⟨.hbm, 89, rfl⟩
abbrev main_cst_20 : Ref sig .tc := ⟨.hbm, 90, rfl⟩
abbrev main_call3_v0 : Ref sig .tc := ⟨.hbm, 91, rfl⟩
abbrev main_call3_v1 : Ref sig .tc := ⟨.hbm, 92, rfl⟩
abbrev main_v55 : Ref sig .tc := ⟨.hbm, 93, rfl⟩
abbrev main_v56 : Ref sig .tc := ⟨.hbm, 94, rfl⟩
abbrev main_c_21 : Ref sig .tc := ⟨.hbm, 95, rfl⟩
abbrev main_v57 : Ref sig .tc := ⟨.hbm, 96, rfl⟩
abbrev main_v58 : Ref sig .tc := ⟨.hbm, 97, rfl⟩
abbrev main_c_22 : Ref sig .tc := ⟨.hbm, 98, rfl⟩
abbrev main_v59 : Ref sig .tc := ⟨.hbm, 99, rfl⟩
abbrev main_v60 : Ref sig .tc := ⟨.hbm, 100, rfl⟩
abbrev main_c_23 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_24 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_25 : Ref sig .tc := ⟨.hbm, 114, rfl⟩
abbrev main_v72 : Ref sig .tc := ⟨.hbm, 115, rfl⟩
abbrev main_cst_26 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩

abbrev nD : Nat := 1
abbrev τ : Topo := Topo.v7x

variable {F : FTy → Type} [FloatOps F]

class Facts₀ : Prop where
  reducesTo_S131072x1000_S131072_d1 : S131072x1000.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x1000_0_1 : S131072x1.BroadcastsInDim S131072x1000 (![0, 1] : Fin 2 → Fin S131072x1000.rank)
  bcast_S_S131072x1000 : S_.BroadcastsInDim S131072x1000 (![] : Fin 0 → Fin S131072x1000.rank)
  concatenates_S131072x1_S131072x1_S131072x2_d1 : Shape.Concatenates [S131072x1, S131072x1] S131072x2 1
  bcast_S_S30 : S_.BroadcastsInDim S30 (![] : Fin 0 → Fin S30.rank)
  natLt_1_32 : 1 < 32
  reducesTo_S30_S_d0 : S30.ReducesTo [0] S_
  reducesTo_S131072_S_d0 : S131072.ReducesTo [0] S_
  gather_S131072x1000_S131072x2_S131072_n_01_n_n_01_1_11_wf : GatherDims.WF S131072x1000 S131072x2 S131072 [] [0, 1] [] [0, 1] [] 1 ![1, 1]
  scatter_S30_S131072x1_S131072_n_0_0_1_wf : ScatterDims.WF S30 S131072x1 S131072 [] [0] [0] 1
  gather_S30_S131072x1_S131072_n_0_n_n_0_1_1_wf : GatherDims.WF S30 S131072x1 S131072 [] [0] [] [0] [] 1 ![1]

variable [Facts₀]

def gather_S131072x1000_S131072x2_S131072_n_01_n_n_01_1_11 : GatherDims S131072x1000 S131072x2 S131072 where
  offsetDims := []
  collapsedSliceDims := [0, 1]
  operandBatchingDims := []
  startIndicesBatchingDims := []
  startIndexMap := [0, 1]
  indexVectorDim := 1
  sliceSizes := ![1, 1]
  wf := gather_S131072x1000_S131072x2_S131072_n_01_n_n_01_1_11_wf
def scatter_S30_S131072x1_S131072_n_0_0_1 : ScatterDims S30 S131072x1 S131072 where
  updateWindowDims := []
  insertedWindowDims := [0]
  scatterDimsToOperandDims := [0]
  indexVectorDim := 1
  wf := scatter_S30_S131072x1_S131072_n_0_0_1_wf
def gather_S30_S131072x1_S131072_n_0_n_n_0_1_1 : GatherDims S30 S131072x1 S131072 where
  offsetDims := []
  collapsedSliceDims := [0]
  operandBatchingDims := []
  startIndicesBatchingDims := []
  startIndexMap := [0]
  indexVectorDim := 1
  sliceSizes := ![1]
  wf := gather_S30_S131072x1_S131072_n_0_n_n_0_1_1_wf

class Facts : Prop extends Facts₀ where

variable [Facts]
-- ==== Proof.KFrameBits.lean ====
/- The FRAME of the kernel program: @main is one pipelined region (a grid of 128 points, two input windows and two
   output windows) followed by 69 host operations in seven stretches. Every weakly fair execution terminates without a
   fault; the region leaves each input array as it found it and each output array overwritten block by block by what
   the body stores; the host operations after the region write only their own result buffers, so the three argument
   arrays end as launched. -/
import proofs.«411597_j11123965296941_2_alg».proof.Proof.Gen.Kernel.Launch
import proofs.«411597_j11123965296941_2_alg».proof.Proof.Gen.Kernel.Skeleton
import proofs.«411597_j11123965296941_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host operations that follow the region, in order. -/
abbrev tailOps : List (List (HloOp τ sig (Elt F))) :=
  [hostOps1, hostOps1_1, hostOps1_2, hostOps1_3, hostOps1_4, hostOps1_5, hostOps1_6]

/-- Core `c`'s buffer contents when the region is entered: no host operation runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- @main is the region continued by the seven stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps trivial trivial main_chain

/-- The region finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The host operations after the region -/

/-- Each touches the pipeline's arrays and the bypassing buffers only: its buffers are unscoped TensorCore references,
    and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- None allocates a buffer. -/
theorem sfx_fresh : ∀ ops ∈ (tailOps : List (List (HloOp τ sig (Elt F)))), ∀ op ∈ ops, op.fresh = ∅ := by
  intro ops hops
  simp only [tailOps, List.mem_cons, List.mem_nil_iff, or_false] at hops
  rcases hops with rfl | rfl | rfl | rfl | rfl | rfl | rfl <;>
    exact List.forall_iff_forall_mem.mp (by simp only [List.Forall]; repeat' constructor)

/-- Each writes its own result buffer only, and no result buffer of theirs is an argument array or an output array of
    the region: the five references are told apart from every result reference by their indices. -/
theorem tail_keeps (b : Ref sig .tc)
    (hb : b = main_arg0 ∨ b = main_arg1 ∨ b = main_arg2 ∨ b = main_v0_0 ∨ b = main_v0_1) :
    ∀ ops ∈ (tailOps : List (List (HloOp τ sig (Elt F)))), ∀ op ∈ ops, Proc.devRef .tc b ∉ op.writes := by
  intro ops hops
  simp only [tailOps, List.mem_cons, List.mem_nil_iff, or_false] at hops
  rcases hb with rfl | rfl | rfl | rfl | rfl <;> rcases hops with rfl | rfl | rfl | rfl | rfl | rfl | rfl <;>
    exact List.forall_iff_forall_mem.mp (by
      simp only [hostOps1, hostOps1_1, hostOps1_2, hostOps1_3, hostOps1_4, hostOps1_5, hostOps1_6, List.Forall,
        StableHlo.nullary_writes, StableHlo.unary_writes, StableHlo.binary_writes, StableHlo.ternary_writes,
        Finset.mem_singleton]
      repeat' apply And.intro
      all_goals exact StableHlo.devRef_ne_of_ne (by decide))

/-- The same over the stretches joined. -/
theorem tail_keeps_flat (b : Ref sig .tc)
    (hb : b = main_arg0 ∨ b = main_arg1 ∨ b = main_arg2 ∨ b = main_v0_0 ∨ b = main_v0_1) :
    ∀ op ∈ (tailOps : List (List (HloOp τ sig (Elt F)))).flatten, Proc.devRef .tc b ∉ op.writes := by
  intro op hop
  obtain ⟨ops, hops, hop'⟩ := List.mem_flatten.mp hop
  exact tail_keeps b hb ops hops op hop'

/-- In particular none writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps main_arg0 (Or.inl rfl) ops hops op hop
  · exact tail_keeps main_arg1 (Or.inr (Or.inl rfl)) ops hops op hop
  · exact tail_keeps main_v0_0 (Or.inr (Or.inr (Or.inr (Or.inl rfl)))) ops hops op hop
  · exact tail_keeps main_v0_1 (Or.inr (Or.inr (Or.inr (Or.inr rfl)))) ops hops op hop

/-- `main_arg2` is no array of the pipeline and no operation after the region writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _
      (tail_keeps_flat main_arg2 (Or.inr (Or.inr (Or.inl rfl)))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post is a run to the
    frame claim's post: `main_arg0` and `main_arg1` are the arrays of the input windows 0 and 1, which the region's
    write-backs never touch (an input's array after every point is its entry contents); `main_arg2` is staged by no
    window and is written by no operation after the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).1 0).trans ((dats 0 c).arrAt_in 0 rfl _)).trans ((hA c 0).trans (V_main_arg0 m c)),
     (((h c).1 1).trans ((dats 0 c).arrAt_in 1 rfl _)).trans ((hA c 1).trans (V_main_arg1 m c)),
     ((h c).2 main_arg2 (Pipeline.mem_restRefs_of main_arg2 (by decide) (by decide))).trans (W_main_arg2 m dats c)⟩) h

/-! ## The body's accesses -/

/-- The whole of a window-0 block, as a rectangle: the body's one load of it. -/
abbrev r1024x1000 : Rect S1024x1000 := Rect.unit (s := S1024x1000) ![0, 0] S1024x1000.size inb_S1024x1000_S1024x1000_0_0
/-- The whole of a 1024-vector, as a rectangle: the body's load of window 1 and its stores into windows 2 and 3. -/
abbrev r1024 : Rect S1024 := Rect.unit (s := S1024) ![0] S1024.size inb_S1024_S1024_0

/-! ## What the body leaves in each output window's buffer -/

/-- Window 2's staging buffer after the body, from the input windows' blocks: its one store, whole. -/
def out0_2 (x0 : Vec F S1024x1000 .f32) (x1 : Vec F S1024 .i32) : Vec F S1024 .f32 :=
  View.canon [⟨r1024, k0_pay1 (View.ld x0 r1024x1000) (View.ld x1 r1024)⟩]
/-- Window 3's staging buffer after the body, likewise. -/
def out0_3 (x0 : Vec F S1024x1000 .f32) (x1 : Vec F S1024 .i32) : Vec F S1024 .f32 :=
  View.canon [⟨r1024, k0_pay2 (View.ld x0 r1024x1000) (View.ld x1 r1024)⟩]

/-- The one store covers the buffer. -/
theorem cover1024 (p0 : Vec F S1024 .f32) (y : S1024.Idx) :
    ∃ pc ∈ ([⟨r1024, p0⟩] : List (View.Piece (Elt F) S1024 .f32)), y ∈ pc.1.set :=
  View.cover_of_tiled [⟨r1024, p0⟩] S1024.size (by rfl) y

/-! ## The body's triple -/

set_option maxHeartbeats 1000000 in
/-- The kernel body on whole staging buffers, the inputs' at read contents `x0`, `x1` and the outputs' at anything,
    runs to the continuation holding the inputs' as they were and each output's at its one whole store over the inputs:
    the printed function is its skeleton of two loads, then for each output a load whose value is unused and the
    covering store. -/
theorem sound_kernel (c : Dev nD) (E : Set ℕ) (i : grid0.Coords)
    (arg1 : Memref sig .tc .vmem S1024x1000 .f32) (harg1 : arg1.IsWhole)
    (arg2 : Memref sig .tc .vmem S1024 .i32) (harg2 : arg2.IsWhole)
    (arg3 : Memref sig .tc .vmem S1024 .f32) (harg3 : arg3.IsWhole)
    (arg4 : Memref sig .tc .vmem S1024 .f32) (harg4 : arg4.IsWhole)
    (x0 : Vec F S1024x1000 .f32) (x1 : Vec F S1024 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__true_prob_kernel i arg1 harg1 arg2 harg2 arg3 harg3 arg4 harg4) K := by
  simp only [cc0__true_prob_kernel_eq_skeleton]; unfold cc0__true_prob_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1024 _)
  iexists _; isplitr
  swap; · iexact H3
  ipureintro
  exact View.read_writes_eq_canon _ _ _ (cover1024 _)

/-! ## The pipeline's proof data -/

/-- The proof data of the one pipeline on core `c`: the arrays as the region finds them; after the body at point `t`
    each input's buffer at its block and each output's at what the body stores from the two input blocks; the region
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has every array of the pipeline at what the proof data give after the last point and every other
    unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: every weakly fair execution of @main terminates without a fault and the three argument arrays end as
    launched, on every core. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KFrameIdeal.lean ====
/- The FRAME of the kernel program: @main is one pipelined region (a grid of 128 points, two input windows and two
   output windows) followed by 69 host operations in seven stretches. Every weakly fair execution terminates without a
   fault; the region leaves each input array as it found it and each output array overwritten block by block by what
   the body stores; the host operations after the region write only their own result buffers, so the three argument
   arrays end as launched. -/
import proofs.«411597_j11123965296941_2_alg».proof.Proof.Gen.KernelIdeal.Launch
import proofs.«411597_j11123965296941_2_alg».proof.Proof.Gen.KernelIdeal.Skeleton
import proofs.«411597_j11123965296941_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host operations that follow the region, in order. -/
abbrev tailOps : List (List (HloOp τ sig (Elt F))) :=
  [hostOps1, hostOps1_1, hostOps1_2, hostOps1_3, hostOps1_4, hostOps1_5, hostOps1_6]

/-- Core `c`'s buffer contents when the region is entered: no host operation runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- @main is the region continued by the seven stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps trivial trivial main_chain

/-- The region finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The host operations after the region -/

/-- Each touches the pipeline's arrays and the bypassing buffers only: its buffers are unscoped TensorCore references,
    and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- None allocates a buffer. -/
theorem sfx_fresh : ∀ ops ∈ (tailOps : List (List (HloOp τ sig (Elt F)))), ∀ op ∈ ops, op.fresh = ∅ := by
  intro ops hops
  simp only [tailOps, List.mem_cons, List.mem_nil_iff, or_false] at hops
  rcases hops with rfl | rfl | rfl | rfl | rfl | rfl | rfl <;>
    exact List.forall_iff_forall_mem.mp (by simp only [List.Forall]; repeat' constructor)

/-- Each writes its own result buffer only, and no result buffer of theirs is an argument array or an output array of
    the region: the five references are told apart from every result reference by their indices. -/
theorem tail_keeps (b : Ref sig .tc)
    (hb : b = main_arg0 ∨ b = main_arg1 ∨ b = main_arg2 ∨ b = main_v0_0 ∨ b = main_v0_1) :
    ∀ ops ∈ (tailOps : List (List (HloOp τ sig (Elt F)))), ∀ op ∈ ops, Proc.devRef .tc b ∉ op.writes := by
  intro ops hops
  simp only [tailOps, List.mem_cons, List.mem_nil_iff, or_false] at hops
  rcases hb with rfl | rfl | rfl | rfl | rfl <;> rcases hops with rfl | rfl | rfl | rfl | rfl | rfl | rfl <;>
    exact List.forall_iff_forall_mem.mp (by
      simp only [hostOps1, hostOps1_1, hostOps1_2, hostOps1_3, hostOps1_4, hostOps1_5, hostOps1_6, List.Forall,
        StableHlo.nullary_writes, StableHlo.unary_writes, StableHlo.binary_writes, StableHlo.ternary_writes,
        Finset.mem_singleton]
      repeat' apply And.intro
      all_goals exact StableHlo.devRef_ne_of_ne (by decide))

/-- The same over the stretches joined. -/
theorem tail_keeps_flat (b : Ref sig .tc)
    (hb : b = main_arg0 ∨ b = main_arg1 ∨ b = main_arg2 ∨ b = main_v0_0 ∨ b = main_v0_1) :
    ∀ op ∈ (tailOps : List (List (HloOp τ sig (Elt F)))).flatten, Proc.devRef .tc b ∉ op.writes := by
  intro op hop
  obtain ⟨ops, hops, hop'⟩ := List.mem_flatten.mp hop
  exact tail_keeps b hb ops hops op hop'

/-- In particular none writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps main_arg0 (Or.inl rfl) ops hops op hop
  · exact tail_keeps main_arg1 (Or.inr (Or.inl rfl)) ops hops op hop
  · exact tail_keeps main_v0_0 (Or.inr (Or.inr (Or.inr (Or.inl rfl)))) ops hops op hop
  · exact tail_keeps main_v0_1 (Or.inr (Or.inr (Or.inr (Or.inr rfl)))) ops hops op hop

/-- `main_arg2` is no array of the pipeline and no operation after the region writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _
      (tail_keeps_flat main_arg2 (Or.inr (Or.inr (Or.inl rfl)))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post is a run to the
    frame claim's post: `main_arg0` and `main_arg1` are the arrays of the input windows 0 and 1, which the region's
    write-backs never touch (an input's array after every point is its entry contents); `main_arg2` is staged by no
    window and is written by no operation after the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).1 0).trans ((dats 0 c).arrAt_in 0 rfl _)).trans ((hA c 0).trans (V_main_arg0 m c)),
     (((h c).1 1).trans ((dats 0 c).arrAt_in 1 rfl _)).trans ((hA c 1).trans (V_main_arg1 m c)),
     ((h c).2 main_arg2 (Pipeline.mem_restRefs_of main_arg2 (by decide) (by decide))).trans (W_main_arg2 m dats c)⟩) h

/-! ## The body's accesses -/

/-- The whole of a window-0 block, as a rectangle: the body's one load of it. -/
abbrev r1024x1000 : Rect S1024x1000 := Rect.unit (s := S1024x1000) ![0, 0] S1024x1000.size inb_S1024x1000_S1024x1000_0_0
/-- The whole of a 1024-vector, as a rectangle: the body's load of window 1 and its stores into windows 2 and 3. -/
abbrev r1024 : Rect S1024 := Rect.unit (s := S1024) ![0] S1024.size inb_S1024_S1024_0

/-! ## What the body leaves in each output window's buffer -/

/-- Window 2's staging buffer after the body, from the input windows' blocks: its one store, whole. -/
def out0_2 (x0 : Vec F S1024x1000 .f32) (x1 : Vec F S1024 .i32) : Vec F S1024 .f32 :=
  View.canon [⟨r1024, k0_pay1 (View.ld x0 r1024x1000) (View.ld x1 r1024)⟩]
/-- Window 3's staging buffer after the body, likewise. -/
def out0_3 (x0 : Vec F S1024x1000 .f32) (x1 : Vec F S1024 .i32) : Vec F S1024 .f32 :=
  View.canon [⟨r1024, k0_pay2 (View.ld x0 r1024x1000) (View.ld x1 r1024)⟩]

/-- The one store covers the buffer. -/
theorem cover1024 (p0 : Vec F S1024 .f32) (y : S1024.Idx) :
    ∃ pc ∈ ([⟨r1024, p0⟩] : List (View.Piece (Elt F) S1024 .f32)), y ∈ pc.1.set :=
  View.cover_of_tiled [⟨r1024, p0⟩] S1024.size (by rfl) y

/-! ## The body's triple -/

set_option maxHeartbeats 1000000 in
/-- The kernel body on whole staging buffers, the inputs' at read contents `x0`, `x1` and the outputs' at anything,
    runs to the continuation holding the inputs' as they were and each output's at its one whole store over the inputs:
    the printed function is its skeleton of two loads, then for each output a load whose value is unused and the
    covering store. -/
theorem sound_kernel (c : Dev nD) (E : Set ℕ) (i : grid0.Coords)
    (arg1 : Memref sig .tc .vmem S1024x1000 .f32) (harg1 : arg1.IsWhole)
    (arg2 : Memref sig .tc .vmem S1024 .i32) (harg2 : arg2.IsWhole)
    (arg3 : Memref sig .tc .vmem S1024 .f32) (harg3 : arg3.IsWhole)
    (arg4 : Memref sig .tc .vmem S1024 .f32) (harg4 : arg4.IsWhole)
    (x0 : Vec F S1024x1000 .f32) (x1 : Vec F S1024 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__true_prob_kernel i arg1 harg1 arg2 harg2 arg3 harg3 arg4 harg4) K := by
  simp only [cc0__true_prob_kernel_eq_skeleton]; unfold cc0__true_prob_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1024 _)
  iexists _; isplitr
  swap; · iexact H3
  ipureintro
  exact View.read_writes_eq_canon _ _ _ (cover1024 _)

/-! ## The pipeline's proof data -/

/-- The proof data of the one pipeline on core `c`: the arrays as the region finds them; after the body at point `t`
    each input's buffer at its block and each output's at what the body stores from the two input blocks; the region
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has every array of the pipeline at what the proof data give after the last point and every other
    unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: every weakly fair execution of @main terminates without a fault and the three argument arrays end as
    launched, on every core. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KTail.lean ====
/-
  What the host computes after the pallas_call, as one function of the kernel's two result arrays and `acc_sum`.

  With p the clipped true-class probabilities and ℓ = −log p (both of length B = 131072):
    g      = 1 − p                                         (the gradient norm)
    bin    = clip (trunc (30 · g), 0, 29)                  (the bin of each sample)
    counts = Σ_b [bin_b = j],  j < 30                      (a dense one-hot compare, summed over the samples)
  and then, shared word for word with the reference,
    nonempty = counts > 0
    acc'     = where (nonempty, 0.75 · acc + 0.25 · counts, acc)
    w        = where (nonempty, B / max (acc', ε), 0)
    n        = Σ_j nonempty_j
    loss     = (Σ_b ℓ_b · (w[bin_b] / max (n, 1))) / B · 1.
  The first three are named separately because they are where the two programs differ (the reference takes
  |p − 1| and counts with a scatter-add); `restOf` is the shared part.
-/
import proofs.«411597_j11123965296941_2_alg».proof.Proof.Gen.KernelIdeal.Launch
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- g = 1 − p. -/
def gOf (p : (⟨S131072, .f32⟩ : BufTy).Contents (Elt F)) : (⟨S131072, .f32⟩ : BufTy).Contents (Elt F) :=
  subf (broadcastInDim S131072 ![] bcast_S_S131072 (constant S_ .f32 0x3F800000#32)) p

/-- bin = clip (trunc (30 · g), 0, 29), on 32-bit signed words. -/
def binOf (g : (⟨S131072, .f32⟩ : BufTy).Contents (Elt F)) : (⟨S131072, .i32⟩ : BufTy).Contents (Elt F) :=
  minsi (broadcastInDim S131072 ![] bcast_S_S131072 (id (constantI S_ 32 29#32)))
    (maxsi (broadcastInDim S131072 ![] bcast_S_S131072 (id (constantI S_ 32 0#32)))
      (fptosi 32 (mulf g (broadcastInDim S131072 ![] bcast_S_S131072 (constant S_ .f32 0x41F00000#32)))))

/-- counts_j = Σ_b [bin_b = j]: the one-hot compare of every sample's bin with every bin number, summed over the samples. -/
def countsOf (bin : (⟨S131072, .i32⟩ : BufTy).Contents (Elt F)) : (⟨S30, .f32⟩ : BufTy).Contents (Elt F) :=
  Host.reduceAdd
    (uitofp .f32 (cmpi .eq
      (broadcastInDim S131072x30 ![0, 1] bcast_S131072x1_S131072x30_0_1 (broadcastInDim S131072x1 ![0] bcast_S131072_S131072x1_0 bin))
      (broadcastInDim S131072x30 ![0, 1] bcast_S1x30_S131072x30_0_1 (broadcastInDim S1x30 ![1] bcast_S30_S1x30_1 (iotaInDim S30 32 0)))))
    (constant S_ .f32 0x00000000#32) reducesTo_S131072x30_S30_d0 h_S_

/-- nonempty = counts > 0. -/
def nonempty (counts : (⟨S30, .f32⟩ : BufTy).Contents (Elt F)) : (⟨S30, .i1⟩ : BufTy).Contents (Elt F) :=
  cmpf .ogt counts (broadcastInDim S30 ![] bcast_S_S30 (constant S_ .f32 0x00000000#32))

/-- The weight of each bin: B / max (acc', ε) where the bin is nonempty, else 0, with
    acc' = 0.75 · acc + 0.25 · counts where nonempty, else acc. -/
def binWeight (counts acc : (⟨S30, .f32⟩ : BufTy).Contents (Elt F)) : (⟨S30, .f32⟩ : BufTy).Contents (Elt F) :=
  select (nonempty counts)
    (Host.divf (broadcastInDim S30 ![] bcast_S_S30 (constant S_ .f32 0x48000000#32))
      (maximumf
        (select (nonempty counts)
          (addf (mulf (broadcastInDim S30 ![] bcast_S_S30 (constant S_ .f32 0x3F400000#32)) acc)
            (mulf (broadcastInDim S30 ![] bcast_S_S30 (constant S_ .f32 0x3E800000#32)) counts))
          acc)
        (broadcastInDim S30 ![] bcast_S_S30 (constant S_ .f32 0x2EDBE6FF#32))))
    (broadcastInDim S30 ![] bcast_S_S30 (id (constant S_ .f32 0x00000000#32)))

/-- max (n, 1) with n the number of nonempty bins, as a float. -/
def nBins (counts : (⟨S30, .f32⟩ : BufTy).Contents (Elt F)) : (⟨S_, .f32⟩ : BufTy).Contents (Elt F) :=
  maximumf
    (sitofp .f32 (Host.reduce IntOp.addi (extui 32 (nonempty counts) natLt_1_32) (constantI S_ 32 0#32) reducesTo_S30_S_d0 h_S_))
    (constant S_ .f32 0x3F800000#32)

/-- The bin index as the gather reads it: wrapped if negative (it never is). -/
def wrapBin (bin : (⟨S131072, .i32⟩ : BufTy).Contents (Elt F)) : (⟨S131072x1, .i32⟩ : BufTy).Contents (Elt F) :=
  broadcastInDim S131072x1 ![0] bcast_S131072_S131072x1_0
    (select (cmpi .slt bin (broadcastInDim S131072 ![] bcast_S_S131072 (constantI S_ 32 0#32)))
      (addi bin (broadcastInDim S131072 ![] bcast_S_S131072 (constantI S_ 32 30#32))) bin)

/-- The shared part: the mean over the samples of ℓ_b · w[bin_b] / max (n, 1). -/
def restOf (counts : (⟨S30, .f32⟩ : BufTy).Contents (Elt F)) (bin : (⟨S131072, .i32⟩ : BufTy).Contents (Elt F))
    (l : (⟨S131072, .f32⟩ : BufTy).Contents (Elt F)) (acc : (⟨S30, .f32⟩ : BufTy).Contents (Elt F)) :
    (⟨S_, .f32⟩ : BufTy).Contents (Elt F) :=
  mulf
    (Host.divf
      (Host.reduceAdd
        (mulf l
          (Host.divf (Host.gather gather_S30_S131072x1_S131072_n_0_n_n_0_1_1 (binWeight counts acc) (wrapBin bin))
            (broadcastInDim S131072 ![] bcast_S_S131072 (nBins counts))))
        (constant S_ .f32 0x00000000#32) reducesTo_S131072_S_d0 h_S_)
      (constant S_ .f32 0x48000000#32))
    (constant S_ .f32 0x3F800000#32)

/-- The whole tail, as the kernel's program has it. -/
def ktail (p l : (⟨S131072, .f32⟩ : BufTy).Contents (Elt F)) (acc : (⟨S30, .f32⟩ : BufTy).Contents (Elt F)) :
    (⟨S_, .f32⟩ : BufTy).Contents (Elt F) :=
  restOf (countsOf (binOf (gOf p))) (binOf (gOf p)) l acc

/-- The seven stretches of host operations after the pallas_call, in order. -/
abbrev hostTail : List (List (HloOp τ sig (Elt F))) :=
  [hostOps1, hostOps1_1, hostOps1_2, hostOps1_3, hostOps1_4, hostOps1_5, hostOps1_6]

set_option maxRecDepth 16384 in
set_option maxHeartbeats 4000000 in
/-- From any contents `W` of the device's buffers, the operations after the pallas_call leave in the result buffer the
    tail function of `W`'s two kernel results and of `acc_sum`. -/
theorem tail_eq (W : Valuation τ sig (Elt F)) :
    StableHlo.after (List.flatten (hostTail (F := F))) W (Proc.devRef .tc main_v44)
      = ktail (W (Proc.devRef .tc main_v0_0)) (W (Proc.devRef .tc main_v0_1)) (W (Proc.devRef .tc main_arg2)) := by
  simp only [hostTail, hostOps1, hostOps1_1, hostOps1_2, hostOps1_3, hostOps1_4, hostOps1_5, hostOps1_6,
    List.flatten_cons, List.flatten_nil, List.append_nil, List.cons_append, List.nil_append]
  after_results_simp <;> rfl

end Cert.KernelIdeal.Hand

end
-- ==== Proof.KValue.lean ====
/-
  What the kernel program leaves in its result, as a function of its three argument arrays.

  The pallas_call walks the 131072 samples in 128 blocks of 1024 rows. At block q it reads rows 1024 q … 1024 q + 1023 of
  the logits and the same stretch of the labels, and writes that stretch of two vectors: p (the clipped true-class
  probabilities) and ℓ (their negated logarithms), each entry a function of the whole block. The output blocks tile
  their arrays, so after the last point entry i of either array is the body's value for block i / 1024 at row i % 1024.
  The host operations after the call then compute the loss from those two arrays and `acc_sum`.
-/
import proofs.«411597_j11123965296941_2_alg».proof.Proof.KFrameIdeal
import proofs.«411597_j11123965296941_2_alg».proof.Proof.KTail
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-! ## The blocks of the argument arrays -/

/-- Rows 1024 q … 1024 q + 1023 of the logits, as a block. -/
def rowsOf (X : S131072x1000.Idx → Elt F .f32) (q : Nat) : Vec F S1024x1000 .f32 :=
  fun y => X (ix2 ⟨(q * 1024 + (y 0).val) % 131072, Nat.mod_lt _ (by decide)⟩ (y 1))

/-- Labels 1024 q … 1024 q + 1023, as a block. -/
def labelsOf (T : S131072.Idx → Elt F .i32) (q : Nat) : Vec F S1024 .i32 :=
  fun y => T (ix1 ⟨(q * 1024 + (y 0).val) % 131072, Nat.mod_lt _ (by decide)⟩)

/-- p as one function of the whole arrays: entry i is the body's first stored value for block i / 1024, at row i % 1024. -/
def pArr (X : S131072x1000.Idx → Elt F .f32) (T : S131072.Idx → Elt F .i32) : S131072.Idx → Elt F .f32 :=
  fun i => k0_pay1 (rowsOf X ((i 0).val / 1024)) (labelsOf T ((i 0).val / 1024)) (ix1 ⟨(i 0).val % 1024, Nat.mod_lt _ (by decide)⟩)

/-- ℓ likewise, from the body's second stored value. -/
def lArr (X : S131072x1000.Idx → Elt F .f32) (T : S131072.Idx → Elt F .i32) : S131072.Idx → Elt F .f32 :=
  fun i => k0_pay2 (rowsOf X ((i 0).val / 1024)) (labelsOf T ((i 0).val / 1024)) (ix1 ⟨(i 0).val % 1024, Nat.mod_lt _ (by decide)⟩)

/-- Entry 1024 q + r of p is row r of block q's value. -/
theorem pArr_at (X : S131072x1000.Idx → Elt F .f32) (T : S131072.Idx → Elt F .i32) (q : Nat) (r : Fin 1024)
    (i : S131072.Idx) (hi : (i 0).val = q * 1024 + r.val) :
    pArr X T i = k0_pay1 (rowsOf X q) (labelsOf T q) (ix1 r) := by
  have hr := r.isLt
  have h1 : (i 0).val / 1024 = q := by omega
  have h2 : (⟨(i 0).val % 1024, Nat.mod_lt _ (by decide)⟩ : Fin 1024) = r := Fin.ext (by show (i 0).val % 1024 = r.val; omega)
  unfold pArr
  rw [h1, h2]

theorem lArr_at (X : S131072x1000.Idx → Elt F .f32) (T : S131072.Idx → Elt F .i32) (q : Nat) (r : Fin 1024)
    (i : S131072.Idx) (hi : (i 0).val = q * 1024 + r.val) :
    lArr X T i = k0_pay2 (rowsOf X q) (labelsOf T q) (ix1 r) := by
  have hr := r.isLt
  have h1 : (i 0).val / 1024 = q := by omega
  have h2 : (⟨(i 0).val % 1024, Nat.mod_lt _ (by decide)⟩ : Fin 1024) = r := Fin.ext (by show (i 0).val % 1024 = r.val; omega)
  unfold lArr
  rw [h1, h2]

/-! ## The windows at a point -/

variable (m : (ℓ : Loc nD τ sig) → Buf (Elt F) ℓ) (ρ : Dev nD → PrngReg)

/-- The printed index maps, decided over the grid: at point t every window is at block t (the logits' second axis at 0). -/
theorem idx_facts : ∀ t : Fin cfg0.N, win0_0.index t (0 : Fin 2) = t.val ∧ win0_0.index t (1 : Fin 2) = 0
    ∧ win0_1.index t (0 : Fin 1) = t.val ∧ win0_2.index t (0 : Fin 1) = t.val ∧ win0_3.index t (0 : Fin 1) = t.val :=
  (by decide +kernel : ∀ t : Fin grid0.N, _)

theorem hz1 : (![0] : Fin 1 → Nat) = fun _ => 0 := funext fun a => by fin_cases a; rfl
theorem hz2 : (![0, 0] : Fin 2 → Nat) = fun _ => 0 := funext fun a => by fin_cases a <;> rfl

/-- The grid has 128 points. -/
theorem lt128 (t : Fin cfg0.N) : t.val < 128 := by have h := t.isLt; have hN : cfg0.N = 128 := N_0; omega

/-- Window 0's block at point t is rows 1024 t … of the logits as the call finds them. -/
theorem iblk0_eq (c : Dev nD) (t : Fin cfg0.N) : iblk m c 0 t = rowsOf (V m c main_arg0) t.val := by
  have ht := lt128 t
  obtain ⟨e0, e1, -, -, -⟩ := idx_facts t
  funext y
  have hy0 : (y 0).val < 1024 := idx2_lt0 y
  show V m c main_arg0 (((cfg0.win 0).blk t).view.emb y) = V m c main_arg0 (ix2 ⟨(t.val * 1024 + (y 0).val) % 131072, Nat.mod_lt _ (by decide)⟩ (y 1))
  refine congrArg _ ?_
  funext a; apply Fin.ext
  match a with
  | ⟨0, _⟩ => show win0_0.index t (0 : Fin 2) * 1024 + 1 * (y 0).val = (t.val * 1024 + (y 0).val) % 131072; omega
  | ⟨1, _⟩ => show win0_0.index t (1 : Fin 2) * 1000 + 1 * (y 1).val = (y 1).val; omega

/-- Window 1's block at point t is labels 1024 t … as the call finds them. -/
theorem iblk1_eq (c : Dev nD) (t : Fin cfg0.N) : iblk m c 1 t = labelsOf (V m c main_arg1) t.val := by
  have ht := lt128 t
  obtain ⟨-, -, e2, -, -⟩ := idx_facts t
  funext y
  have hy0 : (y 0).val < 1024 := (eq_ix1 y ▸ (y 0).isLt : (y 0).val < 1024)
  show V m c main_arg1 (((cfg0.win 1).blk t).view.emb y) = V m c main_arg1 (ix1 ⟨(t.val * 1024 + (y 0).val) % 131072, Nat.mod_lt _ (by decide)⟩)
  refine congrArg _ ?_
  funext a; apply Fin.ext
  match a with
  | ⟨0, _⟩ => show win0_1.index t (0 : Fin 1) * 1024 + 1 * (y 0).val = (t.val * 1024 + (y 0).val) % 131072; omega

/-! ## Output window 2: p -/

/-- What point t writes back to p's array is block t of `pArr` of the arrays as the call finds them. -/
theorem flushed2_eq (c : Dev nD) (t : Fin cfg0.N) :
    (dats m 0 c).flushed 2 t = ((cfg0.win 2).blk t).view.read (Elt F) (pArr (V m c main_arg0) (V m c main_arg1)) := by
  have ht := lt128 t
  obtain ⟨-, -, -, e3, -⟩ := idx_facts t
  show (cfg0.win 2).cut (grid0.coords t) ((dats m 0 c).after 2 t) = _
  rw [after0_2]
  unfold out0_2
  rw [View.canon_unit_zero hz1]
  simp only [View.ld_unit_zero (S := S1024x1000) hz2, View.ld_unit_zero (S := S1024) hz1]
  rw [iblk0_eq, iblk1_eq]
  funext j
  have hj : (j 0).val < 1024 := (j 0).isLt
  show k0_pay1 (rowsOf (V m c main_arg0) t.val) (labelsOf (V m c main_arg1) t.val) j
    = pArr (V m c main_arg0) (V m c main_arg1) (((cfg0.win 2).blk t).view.emb j)
  rw [pArr_at (V m c main_arg0) (V m c main_arg1) t.val ⟨(j 0).val, hj⟩ _
    (show win0_2.index t (0 : Fin 1) * 1024 + 1 * (j 0).val = t.val * 1024 + (j 0).val by omega)]
  exact congrArg _ (eq_ix1 j)

/-- An index of p's array is in point t's block iff its coordinate is in that block's range. -/
theorem mem_blk2 (t : Fin cfg0.N) (i : S131072.Idx) :
    i ∈ ((cfg0.win 2).blk t).view.set ↔ ∀ a : Fin 1, win0_2.index t a * S1024.size a ≤ (i a).val ∧ (i a).val < win0_2.index t a * S1024.size a + S1024.size a := by
  show i ∈ ((View.whole main_v0_0).slice (win0_2.rect t)).set ↔ _
  rw [View.set_slice_whole, Rect.mem_set_unit]
  exact Iff.rfl

/-- Every index of p's array is in the block of point i / 1024. -/
theorem cover2 (i : S131072.Idx) : ∃ t : Fin cfg0.N, (cfg0.win 2).flush t = true ∧ i ∈ ((cfg0.win 2).blk t).view.set := by
  have hi : (i 0).val < 131072 := (i 0).isLt
  have hN : cfg0.N = 128 := N_0
  refine ⟨⟨(i 0).val / 1024, by omega⟩, flush0_2 _, ?_⟩
  rw [mem_blk2]
  intro a
  obtain ⟨-, -, -, e3, -⟩ := idx_facts ⟨(i 0).val / 1024, by omega⟩
  match a with
  | ⟨0, _⟩ =>
    show win0_2.index ⟨(i 0).val / 1024, _⟩ (0 : Fin 1) * 1024 ≤ (i 0).val ∧ (i 0).val < win0_2.index ⟨(i 0).val / 1024, _⟩ (0 : Fin 1) * 1024 + 1024
    rw [e3]; show (i 0).val / 1024 * 1024 ≤ (i 0).val ∧ (i 0).val < (i 0).val / 1024 * 1024 + 1024; omega

/-- p's array after the call. -/
theorem final2 (c : Dev nD) : (dats m 0 c).arrAt 2 cfg0.N = pArr (m ((c : Thread nD τ).loc main_arg0)) (m ((c : Thread nD τ).loc main_arg1)) :=
  ((dats m 0 c).arrAt_eq_of_cover 2 (pArr (V m c main_arg0) (V m c main_arg1)) (fun t _ => flushed2_eq m c t) cover2).trans
    (by rw [V_main_arg0, V_main_arg1])

/-! ## Output window 3: ℓ -/

theorem flushed3_eq (c : Dev nD) (t : Fin cfg0.N) :
    (dats m 0 c).flushed 3 t = ((cfg0.win 3).blk t).view.read (Elt F) (lArr (V m c main_arg0) (V m c main_arg1)) := by
  have ht := lt128 t
  obtain ⟨-, -, -, -, e4⟩ := idx_facts t
  show (cfg0.win 3).cut (grid0.coords t) ((dats m 0 c).after 3 t) = _
  rw [after0_3]
  unfold out0_3
  rw [View.canon_unit_zero hz1]
  simp only [View.ld_unit_zero (S := S1024x1000) hz2, View.ld_unit_zero (S := S1024) hz1]
  rw [iblk0_eq, iblk1_eq]
  funext j
  have hj : (j 0).val < 1024 := (j 0).isLt
  show k0_pay2 (rowsOf (V m c main_arg0) t.val) (labelsOf (V m c main_arg1) t.val) j
    = lArr (V m c main_arg0) (V m c main_arg1) (((cfg0.win 3).blk t).view.emb j)
  rw [lArr_at (V m c main_arg0) (V m c main_arg1) t.val ⟨(j 0).val, hj⟩ _
    (show win0_3.index t (0 : Fin 1) * 1024 + 1 * (j 0).val = t.val * 1024 + (j 0).val by omega)]
  exact congrArg _ (eq_ix1 j)

theorem mem_blk3 (t : Fin cfg0.N) (i : S131072.Idx) :
    i ∈ ((cfg0.win 3).blk t).view.set ↔ ∀ a : Fin 1, win0_3.index t a * S1024.size a ≤ (i a).val ∧ (i a).val < win0_3.index t a * S1024.size a + S1024.size a := by
  show i ∈ ((View.whole main_v0_1).slice (win0_3.rect t)).set ↔ _
  rw [View.set_slice_whole, Rect.mem_set_unit]
  exact Iff.rfl

theorem cover3 (i : S131072.Idx) : ∃ t : Fin cfg0.N, (cfg0.win 3).flush t = true ∧ i ∈ ((cfg0.win 3).blk t).view.set := by
  have hi : (i 0).val < 131072 := (i 0).isLt
  have hN : cfg0.N = 128 := N_0
  refine ⟨⟨(i 0).val / 1024, by omega⟩, flush0_3 _, ?_⟩
  rw [mem_blk3]
  intro a
  obtain ⟨-, -, -, -, e4⟩ := idx_facts ⟨(i 0).val / 1024, by omega⟩
  match a with
  | ⟨0, _⟩ =>
    show win0_3.index ⟨(i 0).val / 1024, _⟩ (0 : Fin 1) * 1024 ≤ (i 0).val ∧ (i 0).val < win0_3.index ⟨(i 0).val / 1024, _⟩ (0 : Fin 1) * 1024 + 1024
    rw [e4]; show (i 0).val / 1024 * 1024 ≤ (i 0).val ∧ (i 0).val < (i 0).val / 1024 * 1024 + 1024; omega

/-- ℓ's array after the call. -/
theorem final3 (c : Dev nD) : (dats m 0 c).arrAt 3 cfg0.N = lArr (m ((c : Thread nD τ).loc main_arg0)) (m ((c : Thread nD τ).loc main_arg1)) :=
  ((dats m 0 c).arrAt_eq_of_cover 3 (lArr (V m c main_arg0) (V m c main_arg1)) (fun t _ => flushed3_eq m c t) cover3).trans
    (by rw [V_main_arg0, V_main_arg1])

/-! ## The result -/

/-- The result buffer after the host operations that follow the call: the tail function of p, ℓ and `acc_sum`. -/
theorem result_eq (c : Dev nD) :
    Pipeline.afterTail₀ cfgs (dats m) 0 (V0 m) tailOps c main_v44
      = ktail (pArr (m ((c : Thread nD τ).loc main_arg0)) (m ((c : Thread nD τ).loc main_arg1)))
          (lArr (m ((c : Thread nD τ).loc main_arg0)) (m ((c : Thread nD τ).loc main_arg1)))
          (m ((c : Thread nD τ).loc main_arg2)) := by
  unfold Pipeline.afterTail₀
  show StableHlo.after (List.flatten (hostTail (F := F))) _ (Proc.devRef .tc main_v44) = _
  rw [tail_eq]
  have h2 := (Pipeline.withArrays_arr spec0 launch0.win.arr_inj c (V0 m c) (fun w => (dats m 0 c).arrAt w cfg0.N) 2).trans (final2 m c)
  have h3 := (Pipeline.withArrays_arr spec0 launch0.win.arr_inj c (V0 m c) (fun w => (dats m 0 c).arrAt w cfg0.N) 3).trans (final3 m c)
  have ha := (Pipeline.withArrays_of_ne spec0 c (V0 m c) (fun w => (dats m 0 c).arrAt w cfg0.N) main_arg2
    (by exact (by decide : ∀ w, Pipeline.arrRef spec0 w ≠ main_arg2))).trans (V_main_arg2 m c)
  exact congr (congr (congrArg ktail h2) h3) ha

/-- The kernel program's run with the result named: every weakly fair execution of @main terminates without a fault,
    the result holds the tail function of p, ℓ and `acc_sum`, and the three arguments end as launched. -/
theorem run_value : θ_run defs (onTc (τ := τ) (main (F := F))) ⟨m, fun _ => 0, ρ⟩ (fun r => ∀ c : Dev nD,
      r.2.mem ((c.tc : Thread nD τ).loc main_v44)
        = ktail (pArr (m ((c : Thread nD τ).loc main_arg0)) (m ((c : Thread nD τ).loc main_arg1)))
            (lArr (m ((c : Thread nD τ).loc main_arg0)) (m ((c : Thread nD τ).loc main_arg1)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v44 (Pipeline.mem_restRefs_of main_v44 (by decide) (by decide))).trans (result_eq m c),
     (((h c).1 0).trans ((dats m 0 c).arrAt_in 0 rfl _)).trans ((A_eq m c 0).trans (V_main_arg0 m c)),
     (((h c).1 1).trans ((dats m 0 c).arrAt_in 1 rfl _)).trans ((A_eq m c 1).trans (V_main_arg1 m c)),
     ((h c).2 main_arg2 (Pipeline.mem_restRefs_of main_arg2 (by decide) (by decide))).trans (W_main_arg2 m (dats m) c)⟩)
    (run_main m ρ)

end Cert.KernelIdeal.Hand

end
-- ==== Proof.RefTail.lean ====
/-
  The reference after its gather, in the kernel program's words.

  With p = the clipped softmax entry of each sample's class (the reference's gathered array), the reference goes on
    g = |p − 1|,  bin = clip (trunc (30 · g), 0, 29),  counts = zeros(30).at[bin].add(1),  ℓ = −log p,
  and then applies, operation for operation, the same tail as the kernel's program. Each equation below is the
  program's own text read through the stage definitions; nothing is computed.
-/
import proofs.«411597_j11123965296941_2_alg».proof.Proof.RefReadPatched
import proofs.«411597_j11123965296941_2_alg».proof.Proof.KTail

noncomputable section

namespace Cert.ReferenceIdeal.Hand

open Cert.ReferenceIdeal Cert.ReferenceIdeal.Gen Cert.ReferenceIdeal.Read Idealize.ShloMosaic

variable {F : FTy → Type} [FloatOps F]

/-- The reference's histogram: a scatter-add of ones at the (wrapped) bin of every sample, into zeros. -/
def rcountsOf (bin : (⟨S131072, .i32⟩ : BufTy).Contents (Elt F)) : (⟨S30, .f32⟩ : BufTy).Contents (Elt F) :=
  Host.scatterAdd scatter_S30_S131072x1_S131072_n_0_0_1
    (broadcastInDim S30 ![] bcast_S_S30 (constant S_ .f32 0x00000000#32))
    (broadcastInDim S131072x1 ![0] bcast_S131072_S131072x1_0
      (select (cmpi .slt bin (broadcastInDim S131072 ![] bcast_S_S131072 (constantI S_ 32 0#32)))
        (addi bin (broadcastInDim S131072 ![] bcast_S_S131072 (constantI S_ 32 30#32))) bin))
    (broadcastInDim S131072 ![] bcast_S_S131072 (constant S_ .f32 0x3F800000#32))

variable (X : (⟨S131072x1000, .f32⟩ : BufTy).Contents (Elt F)) (T : (⟨S131072, .i32⟩ : BufTy).Contents (Elt F))
  (A : (⟨S30, .f32⟩ : BufTy).Contents (Elt F))

/-- g = |p − 1|. -/
theorem g_eq : val_main_v29 (F := F) X T
    = Host.absf (subf (val_main_v26 (F := F) X T) (broadcastInDim S131072 ![] bcast_S_S131072 (constant S_ .f32 0x3F800000#32))) := rfl

/-- ℓ = −log p. -/
theorem l_eq : val_main_v70 (F := F) X T = Host.negf (Host.log (val_main_v26 (F := F) X T)) := rfl

/-- The bins are the kernel program's function of g. -/
theorem bin_eq : val_main_v33 (F := F) X T = Cert.KernelIdeal.Hand.binOf (val_main_v29 (F := F) X T) := rfl

/-- The counts are the scatter-add over those bins. -/
theorem counts_eq : val_main_v42 (F := F) X T = rcountsOf (val_main_v33 (F := F) X T) := rfl

set_option maxRecDepth 16384 in
/-- From the counts on, the reference's result is the kernel program's shared tail. -/
theorem result_eq : val_main_v74 (F := F) X T A
    = Cert.KernelIdeal.Hand.restOf (val_main_v42 (F := F) X T) (val_main_v33 (F := F) X T) (val_main_v70 (F := F) X T) A := rfl

end Cert.ReferenceIdeal.Hand

end
-- ==== Proof.RefRun.lean ====
/-
  The reference's run, read back in two stretches.

  The reference is 117 host operations. The first 41 compute the clipped softmax and gather one entry per sample:
  the array p. The remaining 76 compute the loss from p and `acc_sum` alone. Reading each stretch back with its
  inputs as atoms keeps every term small; joined, the result buffer holds the last stage `val_main_v74` of the three
  arguments, and no operation writes an argument.
-/
import proofs.«411597_j11123965296941_2_alg».proof.Proof.RefTail
import Idealize.ShloMosaic.Lib.StableHlo.Run
import Idealize.ShloMosaic.Lib.Pipeline.Frame

set_option maxRecDepth 16384

noncomputable section

namespace Cert.ReferenceIdeal.Hand

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable {F : FTy → Type} [FloatOps F]

/-- Everything after the gather, as one function of the gathered array p and `acc_sum`:
    g = |p − 1|, the bins of g, the scatter-add histogram, ℓ = −log p, and the shared tail. -/
def rtail (p : (⟨S131072, .f32⟩ : BufTy).Contents (Elt F)) (acc : (⟨S30, .f32⟩ : BufTy).Contents (Elt F)) :
    (⟨S_, .f32⟩ : BufTy).Contents (Elt F) :=
  Cert.KernelIdeal.Hand.restOf
    (rcountsOf (Cert.KernelIdeal.Hand.binOf
      (Host.absf (subf p (broadcastInDim S131072 ![] bcast_S_S131072 (constant S_ .f32 0x3F800000#32))))))
    (Cert.KernelIdeal.Hand.binOf
      (Host.absf (subf p (broadcastInDim S131072 ![] bcast_S_S131072 (constant S_ .f32 0x3F800000#32)))))
    (Host.negf (Host.log p)) acc

/-- The last stage is that function of the gathered stage. -/
theorem rtail_eq (X : (⟨S131072x1000, .f32⟩ : BufTy).Contents (Elt F)) (T : (⟨S131072, .i32⟩ : BufTy).Contents (Elt F))
    (A : (⟨S30, .f32⟩ : BufTy).Contents (Elt F)) :
    val_main_v74 (F := F) X T A = rtail (val_main_v26 (F := F) X T) A := rfl

set_option maxHeartbeats 4000000 in
/-- The first 41 operations leave the gathered stage of the two arguments they read in p's buffer. -/
theorem head_v26 (W : Valuation τ sig (Elt F)) :
    after ((ops (F := F)).take 41) W (Proc.devRef .tc main_v26)
      = val_main_v26 (F := F) (W (Proc.devRef .tc main_arg0)) (W (Proc.devRef .tc main_arg1)) := by
  simp only [ops, List.take_succ_cons, List.take_zero]
  after_results_simp <;> rfl

set_option maxHeartbeats 4000000 in
/-- They do not write `acc_sum`. -/
theorem head_arg2 (W : Valuation τ sig (Elt F)) :
    after ((ops (F := F)).take 41) W (Proc.devRef .tc main_arg2) = W (Proc.devRef .tc main_arg2) := by
  simp only [ops, List.take_succ_cons, List.take_zero]
  after_results_simp <;> rfl

set_option maxHeartbeats 4000000 in
/-- The remaining operations leave in the result buffer the tail function of p's buffer and `acc_sum`. -/
theorem rest_v74 (W : Valuation τ sig (Elt F)) :
    after ((ops (F := F)).drop 41) W (Proc.devRef .tc main_v74)
      = rtail (W (Proc.devRef .tc main_v26)) (W (Proc.devRef .tc main_arg2)) := by
  simp only [ops, List.drop_succ_cons, List.drop_zero]
  after_results_simp <;> rfl

/-- All 117 operations: the result buffer holds the last stage of the three arguments. -/
theorem ops_v74 (W : Valuation τ sig (Elt F)) :
    after (ops (F := F)) W (Proc.devRef .tc main_v74)
      = val_main_v74 (F := F) (W (Proc.devRef .tc main_arg0)) (W (Proc.devRef .tc main_arg1)) (W (Proc.devRef .tc main_arg2)) := by
  have h : after (ops (F := F)) W = after ((ops (F := F)).drop 41) (after ((ops (F := F)).take 41) W) := by
    rw [← StableHlo.after_append, List.take_append_drop]
  rw [h, rest_v74, head_v26, head_arg2, rtail_eq]

set_option maxHeartbeats 4000000 in
/-- No operation writes an argument. -/
theorem ops_arg0 (W : Valuation τ sig (Elt F)) : after (ops (F := F)) W (Proc.devRef .tc main_arg0) = W (Proc.devRef .tc main_arg0) := by
  after_results_simp <;> rfl
set_option maxHeartbeats 4000000 in
theorem ops_arg1 (W : Valuation τ sig (Elt F)) : after (ops (F := F)) W (Proc.devRef .tc main_arg1) = W (Proc.devRef .tc main_arg1) := by
  after_results_simp <;> rfl
set_option maxHeartbeats 4000000 in
theorem ops_arg2 (W : Valuation τ sig (Elt F)) : after (ops (F := F)) W (Proc.devRef .tc main_arg2) = W (Proc.devRef .tc main_arg2) := by
  after_results_simp <;> rfl

set_option maxHeartbeats 4000000 in
/-- THE RUN: from any memory with zero counters, every weakly fair execution of @main terminates without a fault, the
    result holds the last stage of the three arguments, and the arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74)
        = val_main_v74 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v74).trans (ops_v74 _), (h c main_arg0).trans (ops_arg0 _),
      (h c main_arg1).trans (ops_arg1 _), (h c main_arg2).trans (ops_arg2 _)⟩)
    (run_seq scopedRefs_eq scopedSems_eq defs main (fun _ => ops) main_eq (fun _ => ops_sub) m ρ)

end Cert.ReferenceIdeal.Hand

end
-- ==== Proof.PreFacts.lean ====
import proofs.«411597_j11123965296941_2_alg».proof.Pre_finite_inputs
import proofs.«411597_j11123965296941_2_alg».proof.Proof.Gen.Pre_finite_inputs
import Idealize.ShloMosaic.Lib.ReduceAll
import Idealize.ShloMosaic.Lib.StableHlo.Predicate
import Idealize.ShloMosaic.PureOps.Ideal

/-!
  The precondition, decoded. The printed predicate is the conjunction of three "all" reductions: |preds| < +∞ at every
  entry, |acc_sum| < +∞ at every entry, and 0 ≤ targets < 1000 (signed) at every entry. When it holds,
  every entry of preds is a real number (an extended real whose absolute value is below +∞ is neither infinity nor
  the junk value), and every label is the 32-bit word of some column k < 1000 (a word whose signed reading lies in
  [0, 1000) reads the same unsigned, and is the word of its own value).
-/

noncomputable section

namespace Cert.Pre_finite_inputs.Hand

open Cert.Pre_finite_inputs Idealize.ShloMosaic

/-- The rank-0 result has one index. -/
instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real with |x| < +∞ is a real: |⊥| = |⊤| = ⊤. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A word whose signed reading lies in [0, 1000) is the word of a number below 1000. -/
theorem word_of_range (w : BitVec 32) (h0 : (0#32 : BitVec 32).toInt ≤ w.toInt) (h1 : w.toInt < (1000#32 : BitVec 32).toInt) :
    ∃ k : Fin 1000, w = BitVec.ofNat 32 k.val := by
  rw [show (0#32 : BitVec 32).toInt = 0 from by decide] at h0
  rw [show (1000#32 : BitVec 32).toInt = 1000 from by decide] at h1
  have h2 : 2 * w.toNat < 2 ^ 32 := BitVec.toInt_pos_iff.1 h0
  rw [BitVec.toInt_eq_toNat_of_lt h2] at h1
  have hk : w.toNat < 1000 := by exact_mod_cast h1
  refine ⟨⟨w.toNat, hk⟩, BitVec.eq_of_toNat_eq ?_⟩
  rw [BitVec.toNat_ofNat, Nat.mod_eq_of_lt w.isLt]

/-- THE PRECONDITION DECODED: every logit is a real number, every label the word of a column below 1000. -/
theorem of_pre [Cert.Pre_finite_inputs.Facts] (X : FVec Ideal S131072x1000 .f32) (T : IVec S131072 32) (A : FVec Ideal S30 .f32)
    (h : Cert.Pre_finite_inputs.fn (F := Ideal) X T A = fun _ => 1#1) :
    (∀ i : S131072x1000.Idx, ∃ r : ℝ, X i = (r : EReal)) ∧ (∀ i : S131072.Idx, ∃ k : Fin 1000, T i = BitVec.ofNat 32 k.val) := by
  have e := congrFun h (fun a => a.elim0)
  dsimp only [Cert.Pre_finite_inputs.fn] at e
  obtain ⟨e12, e3⟩ := IntOp.andi_eq_one.1 e
  obtain ⟨e1, -⟩ := IntOp.andi_eq_one.1 e12
  have hX := Host.reduce_andi_all _ _ _ _ _ e1
  have hT := Host.reduce_andi_all _ _ _ _ _ e3
  refine ⟨fun i => ?_, fun i => ?_⟩
  · apply real_of_abs_lt_top
    rw [← inf_bits]
    exact hX i
  · obtain ⟨h0, h1⟩ := IntOp.andi_eq_one.1 (hT i)
    exact word_of_range (T i) (IntOp.cmpi_sge.1 h0) (IntOp.cmpi_slt.1 h1)

end Cert.Pre_finite_inputs.Hand

end
-- ==== Proof.Spec.lean ====
/-
  The mathematics of one row, on the extended reals.

  A row of logits `x : Fin 1000 → EReal` and a class label `t` give the true-class softmax probability,
  clipped to `[ε, 1]` (ε the single-precision value nearest 1e-10; the upper bound 1 − 1e-10 rounds to 1):

    M = max_k x_k,    Z = Σ_k exp (x_k − M),    p = clip (exp (x_t − M) / Z).

  The kernel computes the same number through logarithms and selects the logit `x_t` by a one-hot sum:

    x_t = Σ_k (if k = t then x_k else 0),    p = clip (exp ((x_t − M) − log Z)).

  For real logits Z ≥ 1 is a positive real, so exp (a − log Z) = exp a / Z, and the two agree. This file only
  names the pieces; the laws are proved where they are used.
-/
import Idealize.ShloMosaic.PureOps.Ideal

noncomputable section

namespace Cert.GHM

open Idealize.ShloMosaic

/-- ε: the lower clipping bound, the single-precision number nearest 1e-10. -/
def epsP : EReal := Ideal.ofBits .f32 0x2EDBE6FF#32

/-- The maximum of a row (the fold of `max` from −∞). -/
def rowMax (x : Fin 1000 → EReal) : EReal := (Finset.univ : Finset (Fin 1000)).fold max ⊥ x

/-- Z: the sum over the row of exp (x_k − M). -/
def rowZ (x : Fin 1000 → EReal) : EReal := ∑ k : Fin 1000, Ideal.exp (x k - rowMax x)

/-- The logit of class `t` picked by a one-hot sum: every other term is 0; a label that is no column picks 0. -/
def pick (x : Fin 1000 → EReal) (t : BitVec 32) : EReal :=
  ∑ k : Fin 1000, if BitVec.ofNat 32 k.val = t then x k else 0

/-- Clipping to [ε, 1]: first from below, then from above. -/
def clipP (y : EReal) : EReal := min 1 (max epsP y)

/-- The true-class probability as the kernel computes it: through the logarithm of Z. -/
def kerP (x : Fin 1000 → EReal) (t : BitVec 32) : EReal :=
  clipP (Ideal.exp ((pick x t - rowMax x) - Ideal.log (rowZ x)))

/-- The true-class probability as the reference computes it: the softmax entry of column `k`, clipped. -/
def refP (x : Fin 1000 → EReal) (k : Fin 1000) : EReal :=
  clipP (Ideal.div (Ideal.exp (x k - rowMax x)) (rowZ x))

end Cert.GHM

end
-- ==== Proof.KPayload.lean ====
/-
  The kernel body's two stored vectors, read at a row.

  On a block `x` of 1024 rows of 1000 logits and a block `t` of 1024 class labels the body stores, for every row `r`,

    p_r = clip (exp ((x_{r,t_r} − M_r) − log Z_r)),   M_r = max_k x_{r,k},   Z_r = Σ_k exp (x_{r,k} − M_r),

  the logit x_{r,t_r} taken by a one-hot sum over the row (column number against label, as 32-bit words), and
  0 − log p_r. Here each vector is read at one row and identified with the row function of Spec.lean. Every step is the
  reading of one operation at an index: a lane maximum is the fold of `max` from −∞ over the row, a lane sum is the sum
  over the row, a row statistic kept as a column [a] → [a, 1] and broadcast [a, 1] → [a, b] reads the statistic of that
  row, the column numbering reads the column, and the elementwise operations read through.
-/
import proofs.«411597_j11123965296941_2_alg».proof.Proof.Spec
import proofs.«411597_j11123965296941_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## A column [a, 1]: made from a vector, read back, broadcast along the rows -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and broadcast along the row reads, at `(r, k)`, the statistic of row `r`. -/
theorem keepdims_apply (v : S1024.Idx → α) (r : Fin 1024) (k : Fin 1000) :
    broadcastTo S1024x1000 (shapeCast S1024x1 v shapeCasts_S1024_S1024x1) broadcasts_S1024x1_S1024x1000 (ix2 r k) = v (ix1 r) :=
  (broadcastTo_a1_ab_apply _ broadcasts_S1024x1_S1024x1000 r k).trans (shapeCast_a_a1_apply v shapeCasts_S1024_S1024x1 r 0)

end Layout

/-! ## The reductions along a row -/

/-- The source index over row `r` with column `k` inserted is `(r, k)`. -/
theorem lift_ix1 (r : Fin 1024) (k : Fin 1000) :
    reduces_S1024x1000_S1024.lift (ix1 r) k = ix2 r k := by
  funext c
  match c with
  | ⟨0, _⟩ => exact Fin.ext rfl
  | ⟨1, _⟩ => exact Fin.ext rfl

/-- The word 0xFF800000 is −∞. -/
theorem ofBits_neg_inf : Ideal.ofBits .f32 0xFF800000#32 = ⊥ := by simp [Ideal.ofBits, Ideal.ieee]

/-- The word 0x3F800000 is 1. -/
theorem ofBits_one : Ideal.ofBits .f32 0x3F800000#32 = 1 := by
  simp [Ideal.ofBits, Ideal.ieee]
  norm_num [← EReal.coe_mul]

/-- A row's maximum: the lane maximum at row `r` is the fold of `max` from −∞ over the row. (The two proof arguments are
    typed as the printed term carries them.) -/
theorem rowMax_apply (src : FVec Ideal S1024x1000 .f32) (r : Fin 1024) (hφ : FKind.Formats .f32)
    (hacc : (0xFF800000#32 : BitVec 32) = 0xFF800000#32) :
    multiReduction (F := Ideal) .maximumf [1] S1024 src 0xFF800000#32 reduces_S1024x1000_S1024 hφ hacc (ix1 r)
      = (Finset.univ : Finset (Fin 1000)).fold max ⊥ (fun k : Fin 1000 => src (ix2 r k)) := by
  refine (Ideal.multiReduction_maximumf_single src _ reduces_S1024x1000_S1024 hφ hacc (ix1 r)).trans ?_
  show (Finset.univ : Finset (Fin 1000)).fold max (Ideal.ofBits .f32 0xFF800000#32)
    (fun k : Fin 1000 => src (reduces_S1024x1000_S1024.lift (ix1 r) k)) = _
  rw [ofBits_neg_inf]
  simp only [lift_ix1]

/-- A row's sum: the lane sum at row `r` is the sum over the row. -/
theorem rowSum_apply (src : FVec Ideal S1024x1000 .f32) (r : Fin 1024) (hφ : FKind.Formats .f32)
    (hacc : (0x00000000#32 : BitVec 32) = 0x00000000#32) :
    multiReduction (F := Ideal) .add [1] S1024 src 0x00000000#32 reduces_S1024x1000_S1024 hφ hacc (ix1 r)
      = ∑ k : Fin 1000, src (ix2 r k) := by
  refine (Ideal.multiReduction_add_single src _ reduces_S1024x1000_S1024 hφ hacc (ix1 r)).trans ?_
  show ∑ k : Fin 1000, src (reduces_S1024x1000_S1024.lift (ix1 r) k) = _
  simp only [lift_ix1]

/-! ## The elementwise operations and the column numbering at an index -/

/-- A select on an equality test of two words is the `if` on their equality. -/
theorem select_cmpi_eq {β : Type} (a b : BitVec 32) (u v : β) :
    Scalar.select (IntOp.cmpi .eq a b) u v = if a = b then u else v := by
  show (if BitVec.ofBool (a == b) = 1#1 then u else v) = if a = b then u else v
  by_cases h : a = b
  · subst h; simp
  · have hb : (a == b) = false := by simpa using h
    rw [hb, if_neg h]; exact if_neg (by decide)

/-- `exp` of a vector at an index. -/
theorem exp_apply {s : Shape} {φ : FTy} (a : FVec Ideal s φ) (i : s.Idx) : exp a i = Ideal.exp (a i) := rfl
/-- `log` of a vector at an index. -/
theorem log_apply {s : Shape} {φ : FTy} (a : FVec Ideal s φ) (i : s.Idx) : log a i = Ideal.log (a i) := rfl
/-- An integer comparison at an index compares the words. -/
theorem cmpi_apply {s : Shape} {w : ℕ} (p : CmpIPredicate) (a b : IVec s w) (i : s.Idx) :
    cmpi p a b i = IntOp.cmpi p (a i) (b i) := rfl

/-- The column number of entry `(r, k)` is `k`, as a 32-bit word. -/
theorem iota_col_apply (r : Fin 1024) (k : Fin 1000) :
    iota .tc S1024x1000 32 [1] iota_S1024x1000_d1_w32 (ix2 r k) = BitVec.ofNat 32 k.val :=
  iota_single_apply .tc S1024x1000 32 1 iota_S1024x1000_d1_w32 (ix2 r k)

/-! ## The stored vectors at a row -/

/-- The stored probabilities at row `r`, every operation read at that row, the constants still as words. -/
theorem k0_pay1_raw (x : Vec Ideal S1024x1000 .f32) (t : Vec Ideal S1024 .i32) (r : Fin 1024) :
    k0_pay1 (F := Ideal) x t (ix1 r)
      = min (Ideal.ofBits .f32 0x3F800000#32) (max (Ideal.ofBits .f32 0x2EDBE6FF#32)
          (Ideal.exp (((∑ k : Fin 1000, if BitVec.ofNat 32 k.val = t (ix1 r) then x (ix2 r k) else 0)
              - (Finset.univ : Finset (Fin 1000)).fold max ⊥ (fun k : Fin 1000 => x (ix2 r k)))
            - Ideal.log (∑ k : Fin 1000, Ideal.exp (x (ix2 r k)
                - (Finset.univ : Finset (Fin 1000)).fold max ⊥ (fun k : Fin 1000 => x (ix2 r k))))))) := by
  unfold k0_pay1
  simp only [minimumf_apply, maximumf_apply, subf_apply, exp_apply, log_apply, broadcast_apply, shapeCast_shapeCast,
    Ideal.ofBits_def, Ideal.ofBits_zero_f32]
  rw [rowMax_apply x r, rowSum_apply _ r, rowSum_apply _ r]
  simp only [select_apply, cmpi_apply, keepdims_apply, broadcast_apply, select_cmpi_eq, exp_apply, subf_apply]
  rw [rowMax_apply x r]
  have hpick : (fun k : Fin 1000 => if iota .tc S1024x1000 32 [1] iota_S1024x1000_d1_w32 (ix2 r k) = t (ix1 r)
        then x (ix2 r k) else (0 : EReal))
      = fun k : Fin 1000 => if BitVec.ofNat 32 k.val = t (ix1 r) then x (ix2 r k) else 0 :=
    funext fun k => by rw [iota_col_apply]
  rw [hpick]

/-- The stored probabilities at row `r`: the row function of that row's logits and label. -/
theorem k0_pay1_apply (x : Vec Ideal S1024x1000 .f32) (t : Vec Ideal S1024 .i32) (r : Fin 1024) :
    k0_pay1 (F := Ideal) x t (ix1 r) = Cert.GHM.kerP (fun k : Fin 1000 => x (ix2 r k)) (t (ix1 r)) := by
  rw [k0_pay1_raw, ofBits_one]
  rfl

/-- The second stored vector at row `r`: 0 − log of the stored probability. -/
theorem k0_pay2_apply (x : Vec Ideal S1024x1000 .f32) (t : Vec Ideal S1024 .i32) (r : Fin 1024) :
    k0_pay2 (F := Ideal) x t (ix1 r) = (0 : EReal) - Ideal.log (k0_pay1 (F := Ideal) x t (ix1 r)) := by
  unfold k0_pay2
  simp only [subf_apply, log_apply, broadcast_apply, Ideal.ofBits_def, Ideal.ofBits_zero_f32]

end Cert.KernelIdeal.Hand

end
-- ==== Proof.RefP.lean ====
/-
  The reference's true-class probability read at an index.

  The reference computes p = clip (softmax (x, axis 1), ε, 1) [arange B, t]: for every row b the row maximum
  M_b = max_k x_{b,k} (a fold of max from −∞), the exponentials exp (x_{b,k} − M_b), their row sum Z_b, the quotient
  exp (x_{b,k} − M_b) / Z_b clipped to [ε, 1]; then ONE element per row, picked by a gather whose start index at row b
  is the pair (b, t_b), each component first wrapped ("add the extent if negative": never taken for a word below 2³¹).

  Read at row b with the label's column k = t_b in range, the gathered value is the row function
  clip (exp (x_{b,k} − M_b) / Z_b) of row b's logits. The pieces: the fold along a row, the two-column join, the wrap of a
  small word, the two-coordinate gather with in-range start indices (nothing is clamped), then the chain stage by stage.
-/
import proofs.«411597_j11123965296941_2_alg».proof.Proof.Spec
import proofs.«411597_j11123965296941_2_alg».proof.Proof.RefReadPatched
import Idealize.ShloMosaic.Lib.ValueIdx
import Idealize.ShloMosaic.Lib.Pipeline.Value
import Idealize.ShloMosaic.Lib.StableHlo.Predicate
import Idealize.ShloMosaic.Lib.WordArith
import Idealize.ShloMosaic.Lib.IdealHost
import Idealize.ShloMosaic.PureOps.ShapeOps
import Idealize.ShloMosaic.PureOps.Reduce
import Idealize.ShloMosaic.PureOps.Ideal.Laws

noncomputable section

namespace Cert.ReferenceIdeal.Hand

open Cert.ReferenceIdeal Cert.ReferenceIdeal.Read Idealize.ShloMosaic Idealize.ShloMosaic.ValueIdx

/-! ## Shape operations read at an index, at any extents -/

/-- A gather whose start index has two components, one per operand axis, both axes collapsed (slice sizes 1, 1), no
    offset or batching axes, the index vector on axis 1: result position `p` reads the operand at (row, column) =
    the two words of row `p` of the start indices, when both, read signed, are in range (so nothing is clamped). -/
theorem gather_pair_apply {α : Type} {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ w) (p : Fin n) (r : Fin N) (c : Fin M)
    (hr : (idx (ix2 p (0 : Fin 2))).toInt.toNat = r.val) (hc : (idx (ix2 p (1 : Fin 2))).toInt.toNat = c.val) :
    Host.gather d x idx (ix1 p) = x (ix2 r c) := by
  unfold Host.gather
  congr 1
  funext a
  apply Fin.ext
  have hb : ∀ a : Fin 2, a ∉ d.operandBatchingDims := by intro a; rw [hob]; exact List.not_mem_nil
  have hk : ∀ a : Fin 2, a ∉ d.sKept := by
    intro a; rw [GatherDims.mem_sKept, hcoll]; intro h; apply h.1; fin_cases a <;> simp
  have hm : ∀ a : Fin 2, a ∈ d.startIndexMap := by intro a; rw [hsim]; fin_cases a <;> simp
  have hsl : ∀ a : Fin 2, d.sliceSizes a = 1 := by
    intro a; apply d.slice_collapsed a; rw [hcoll]; fin_cases a <;> simp
  simp only [GatherDims.operandIdx, GatherDims.batchCoord_eq_zero _ _ _ (hb a), GatherDims.offCoord_eq_zero _ _ _ (hk a),
    Nat.add_zero, GatherDims.start, dif_pos (hm a)]
  have hsi : ∀ (a : Fin 2) (h : List.idxOf a d.startIndexMap < d.startIndexMap.length),
      d.siIdx (ix1 p) ⟨List.idxOf a d.startIndexMap, h⟩ = ix2 p (⟨a.val, a.isLt⟩ : Fin 2) := by
    intro a h
    funext b
    apply Fin.ext
    match b with
    | ⟨0, _⟩ =>
      unfold GatherDims.siIdx
      rw [dif_neg (by rw [hivd]; simp)]
      unfold GatherDims.siCoord
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      show List.idxOf a d.startIndexMap = a.val
      rw [hsim]; fin_cases a <;> simp
  rw [hsi a, hsl a]
  match a with
  | ⟨0, _⟩ =>
    show min (idx (ix2 p (0 : Fin 2))).toInt.toNat (N - 1) = r.val
    rw [hr]; have := r.isLt; omega
  | ⟨1, _⟩ =>
    show min (idx (ix2 p (1 : Fin 2))).toInt.toNat (M - 1) = c.val
    rw [hc]; have := c.isLt; omega

/-- Row `b` with column `k` put back is (b, k). -/
theorem lift_row {n m : Nat} (h : (⟨2, ![n, m]⟩ : Shape).Reduces [1] (⟨1, ![n]⟩ : Shape)) (b : Fin n)
    (k : Fin ((⟨2, ![n, m]⟩ : Shape).size 1)) : h.lift (ix1 b) k = ix2 b (⟨k.val, k.isLt⟩ : Fin m) := by
  funext c; apply Fin.ext
  fin_cases c <;> rfl

/-- From −∞ the host's reduce with a maximum body along a row is the fold of `max` from ⊥ over the row. -/
theorem hostReduce_max_row {n m : Nat} {u : Shape} (x : FVec Ideal ⟨2, ![n, m]⟩ .f32) (init : FVec Ideal u .f32)
    (h' : (⟨2, ![n, m]⟩ : Shape).ReducesTo [1] (⟨1, ![n]⟩ : Shape))
    (h : (⟨2, ![n, m]⟩ : Shape).Reduces [1] (⟨1, ![n]⟩ : Shape)) (hu : 0 < u.numel)
    (hinit : init (Shape.Idx.first hu) = (⊥ : EReal)) (b : Fin n) :
    Host.reduce FloatOps.maximumf x init h' hu (ix1 b)
      = (Finset.univ : Finset (Fin m)).fold max (⊥ : EReal) (fun k => x (ix2 b k)) := by
  rw [Host.reduce_eq_fold_single FloatOps.maximumf x _ h' h hu, hinit]
  have hf : (x ∘ h.lift (ix1 b)) = fun k : Fin m => x (ix2 b k) := funext fun k => congrArg x (lift_row h b k)
  exact congrArg (fun f => Finset.fold max (⊥ : EReal) f (Finset.univ : Finset (Fin m))) hf

/-- Two [n × 1] columns joined along axis 1 read, at (p, 0), the first column at (p, 0). -/
theorem concat_cols_apply0 {α : Type} {n : Nat}
    (x₁ x₂ : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, x₁⟩, ⟨⟨2, ![n, 1]⟩, x₂⟩] h (ix2 p (0 : Fin 2)) = x₁ (ix2 p (0 : Fin 1)) :=
  concatenate_pair_apply_left 1 x₁ x₂ h (ix2 p (0 : Fin 2)) rfl (ix2 p (0 : Fin 1))
    (fun b => by fin_cases b <;> rfl)

/-- … and, at (p, 1), the second column at (p, 0). -/
theorem concat_cols_apply1 {α : Type} {n : Nat}
    (x₁ x₂ : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, x₁⟩, ⟨⟨2, ![n, 1]⟩, x₂⟩] h (ix2 p (1 : Fin 2)) = x₂ (ix2 p (0 : Fin 1)) :=
  concatenate_pair_apply_right 1 x₁ x₂ h (ix2 p (1 : Fin 2)) rfl rfl (ix2 p (0 : Fin 1))
    (fun b hb => by fin_cases b; · rfl
                    · exact absurd rfl hb)
    rfl

/-- A word below 2³¹ is not negative, so the wrap "add the extent if negative" leaves it as it is. -/
theorem wrap_small (k : Nat) (hk : k < 2 ^ 31) (c : BitVec 32) :
    Scalar.select (IntOp.cmpi .slt (BitVec.ofNat 32 k) 0#32) (IntOp.addi (BitVec.ofNat 32 k) c) (BitVec.ofNat 32 k)
      = BitVec.ofNat 32 k := by
  have hn : ¬ IntOp.cmpi .slt (BitVec.ofNat 32 k) 0#32 = 1#1 := by
    rw [StableHlo.Predicate.slt_iff_toNat (by simp; omega) (by simp)]
    simp
  rw [eq_zero_of_ne_one hn, select_zero]

/-- … and read signed it is the number itself. -/
theorem toInt_toNat_small (k : Nat) (hk : k < 2 ^ 31) : (BitVec.ofNat 32 k).toInt.toNat = k := by
  rw [WordArith.toInt_ofNat_small k hk]; rfl

/-! ## The softmax stages at (b, j) -/

/-- The single-precision word of −∞ denotes ⊥. -/
private theorem ofBits_neg_inf : Ideal.ofBits .f32 0xFF800000#32 = (⊥ : EReal) := by
  simp [Ideal.ofBits, Ideal.ieee]

/-- The row maximum as the reduce computes it. -/
theorem val_main_v0_row (X : FVec Ideal S131072x1000 .f32) (b : Fin 131072) :
    val_main_v0 (F := Ideal) X (ix1 b) = Cert.GHM.rowMax (fun j : Fin 1000 => X (ix2 b j)) := by
  unfold val_main_v0 Cert.GHM.rowMax
  exact hostReduce_max_row X (val_main_cst (F := Ideal)) _ (by decide) _
    (by rw [val_main_cst_apply]; exact ofBits_neg_inf) b

/-- … and after the maximum with the broadcast −∞: max ⊥ M = M. -/
theorem val_main_v2_row (X : FVec Ideal S131072x1000 .f32) (b : Fin 131072) :
    val_main_v2 (F := Ideal) X (ix1 b) = Cert.GHM.rowMax (fun j : Fin 1000 => X (ix2 b j)) := by
  rw [val_main_v2_apply, val_main_v1_apply, val_main_cst_0_apply, val_main_v0_row]
  simp only [Ideal.maximumf_def, Ideal.ofBits_def, ofBits_neg_inf, max_bot_left]

/-- The row of (b, j), through the two broadcasts [B] → [B, 1] → [B, K]. -/
private theorem idx_v3_v4 (b : Fin 131072) (j : Fin 1000) : idx_main_v3 (idx_main_v4 (ix2 b j)) = ix1 b := by
  funext a; match a with | ⟨0, _⟩ => rfl
private theorem idx_v8_v9 (b : Fin 131072) (j : Fin 1000) : idx_main_v8 (idx_main_v9 (ix2 b j)) = ix1 b := by
  funext a; match a with | ⟨0, _⟩ => rfl
/-- Row b with column k put back. -/
private theorem idx_v7 (b : Fin 131072) (k : Fin 1000) : idx_main_v7 (ix1 b) k = ix2 b k := by
  funext a; match a with | ⟨0, _⟩ => rfl | ⟨1, _⟩ => rfl

/-- x_{b,j} − M_b. -/
theorem val_main_v5_row (X : FVec Ideal S131072x1000 .f32) (b : Fin 131072) (j : Fin 1000) :
    val_main_v5 (F := Ideal) X (ix2 b j) = X (ix2 b j) - Cert.GHM.rowMax (fun j : Fin 1000 => X (ix2 b j)) := by
  rw [val_main_v5_apply, val_main_v4_apply, val_main_v3_apply, idx_v3_v4, val_main_v2_row]
  rfl

/-- exp (x_{b,j} − M_b). -/
theorem val_main_v6_row (X : FVec Ideal S131072x1000 .f32) (b : Fin 131072) (j : Fin 1000) :
    val_main_v6 (F := Ideal) X (ix2 b j)
      = Ideal.exp (X (ix2 b j) - Cert.GHM.rowMax (fun j : Fin 1000 => X (ix2 b j))) := by
  rw [val_main_v6_apply, val_main_v5_row]
  rfl

/-- Z_b: from 0 the row sum of the exponentials. -/
theorem val_main_v7_row (X : FVec Ideal S131072x1000 .f32) (b : Fin 131072) :
    val_main_v7 (F := Ideal) X (ix1 b) = Cert.GHM.rowZ (fun j : Fin 1000 => X (ix2 b j)) := by
  rw [val_main_v7_apply, val_main_cst_1_apply]
  simp only [Ideal.ofBits_def, Ideal.ofBits_zero_f32, zero_add]
  unfold Cert.GHM.rowZ
  refine Finset.sum_congr rfl fun k _ => ?_
  rw [idx_v7, val_main_v6_row]

/-- The softmax entry exp (x_{b,j} − M_b) / Z_b. -/
theorem val_main_v10_row (X : FVec Ideal S131072x1000 .f32) (b : Fin 131072) (j : Fin 1000) :
    val_main_v10 (F := Ideal) X (ix2 b j)
      = Ideal.div (Ideal.exp (X (ix2 b j) - Cert.GHM.rowMax (fun j : Fin 1000 => X (ix2 b j))))
          (Cert.GHM.rowZ (fun j : Fin 1000 => X (ix2 b j))) := by
  rw [val_main_v10_apply, val_main_v6_row, val_main_v9_apply, val_main_v8_apply, idx_v8_v9, val_main_v7_row]
  rfl

/-- … clipped to [ε, 1]: first from below, then from above. -/
theorem val_main_v11_row (X : FVec Ideal S131072x1000 .f32) (b : Fin 131072) (j : Fin 1000) :
    val_main_v11 (F := Ideal) X (ix2 b j)
      = Cert.GHM.clipP (Ideal.div (Ideal.exp (X (ix2 b j) - Cert.GHM.rowMax (fun j : Fin 1000 => X (ix2 b j))))
          (Cert.GHM.rowZ (fun j : Fin 1000 => X (ix2 b j)))) := by
  rw [val_main_v11_apply, val_main_call0_v4_apply, val_main_call0_v3_apply, val_main_cst_3_apply,
    val_main_call0_v2_apply, val_main_call0_v1_apply, val_main_call0_v0_apply, val_main_cst_2_apply, val_main_v10_row]
  unfold Cert.GHM.clipP Cert.GHM.epsP
  simp only [Ideal.minimumf_def, Ideal.maximumf_def, Ideal.ofBits_def, Ideal.ofBits_one_f32]

/-! ## The start indices at row b -/

/-- Component 0: the row number (a word below 2³¹, so the wrap leaves it). -/
theorem val_main_v25_row0 (T : IVec S131072 32) (b : Fin 131072) :
    val_main_v25 (F := Ideal) T (ix2 b (0 : Fin 2)) = BitVec.ofNat 32 b.val := by
  unfold val_main_v25
  refine (concat_cols_apply0 (val_main_v23 (F := Ideal)) (val_main_v24 (F := Ideal) T) _ b).trans ?_
  have hi : idx_main_v23 (ix2 b (0 : Fin 1)) = ix1 b := by funext a; match a with | ⟨0, _⟩ => rfl
  rw [val_main_v23_apply, hi, val_main_v17_apply, val_main_v14_apply, val_main_v16_apply, val_main_v12_apply,
    val_main_v13_apply, val_main_c_apply]
  exact wrap_small b.val (by have := b.isLt; omega) _

/-- Component 1: the label, when it is the column k (below 2³¹, so the wrap leaves it). -/
theorem val_main_v25_row1 (T : IVec S131072 32) (b : Fin 131072) (k : Fin 1000)
    (hk : T (ix1 b) = BitVec.ofNat 32 k.val) :
    val_main_v25 (F := Ideal) T (ix2 b (1 : Fin 2)) = BitVec.ofNat 32 k.val := by
  unfold val_main_v25
  refine (concat_cols_apply1 (val_main_v23 (F := Ideal)) (val_main_v24 (F := Ideal) T) _ b).trans ?_
  have hi : idx_main_v24 (ix2 b (0 : Fin 1)) = ix1 b := by funext a; match a with | ⟨0, _⟩ => rfl
  rw [val_main_v24_apply, hi, val_main_v22_apply, val_main_v19_apply, val_main_v21_apply, val_main_v18_apply,
    val_main_c_5_apply, hk]
  exact wrap_small k.val (by have := k.isLt; omega) _

/-! ## The gathered value -/

/-- THE REFERENCE'S p AT ROW b, for a label that is the column k: the clipped softmax entry of column k of row b. -/
theorem val_main_v26_apply (X : FVec Ideal S131072x1000 .f32) (T : IVec S131072 32) (b : Fin 131072) (k : Fin 1000)
    (hk : T (ix1 b) = BitVec.ofNat 32 k.val) :
    val_main_v26 (F := Ideal) X T (ix1 b) = Cert.GHM.refP (fun j : Fin 1000 => X (ix2 b j)) k := by
  unfold val_main_v26
  have h0 : (val_main_v25 (F := Ideal) T (ix2 b (0 : Fin 2))).toInt.toNat = b.val := by
    rw [val_main_v25_row0]; exact toInt_toNat_small _ (by have := b.isLt; omega)
  have h1 : (val_main_v25 (F := Ideal) T (ix2 b (1 : Fin 2))).toInt.toNat = k.val := by
    rw [val_main_v25_row1 T b k hk]; exact toInt_toNat_small _ (by have := k.isLt; omega)
  rw [gather_pair_apply gather_S131072x1000_S131072x2_S131072_n_01_n_n_01_1_11 rfl rfl rfl rfl
    (val_main_v11 (F := Ideal) X) (val_main_v25 (F := Ideal) T) b b k h0 h1, val_main_v11_row]
  rfl

end Cert.ReferenceIdeal.Hand

end
-- ==== Proof.LibStreamSoftmax.lean ====
/-
  The scalar laws behind streaming softmax, on the extended reals with real data. A row's state after
  some key tiles is (μ, exp(−μ)·Z, exp(−μ)·N) for SOME real μ (the running maximum; its being a maximum is
  never used), Z the sum of exp(score) and N the weighted sum so far. A new tile with maximum-so-far μ'
  rescales the old sums by exp(μ − μ') and adds exp(score − μ'): both become exp(−μ')·(old + tile's).
  At the first tile the old maximum is −∞, the rescaling factor exp(−∞ − μ') is 0 and the old sums are 0.
  The final quotient cancels exp(−μ). The two-pass form Σ_k (exp(s_k − M)/Σ_j exp(s_j − M))·v_k cancels
  exp(−M) the same way.
-/
import Idealize.ShloMosaic.PureOps.Ideal
import Mathlib.Analysis.SpecialFunctions.Exp

noncomputable section

namespace Cert.Attn

open Idealize.ShloMosaic

variable {ι : Type} [Fintype ι]

/-- The coercion of a finite real sum is the sum of the coercions. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The f32 word of −∞ denotes ⊥. -/
theorem ofBits_neg_inf : Ideal.ofBits .f32 0xFF800000#32 = (⊥ : EReal) := by
  simp [Ideal.ofBits, Ideal.ieee]

/-- A dot product of real data is real. -/
theorem dot_coe (a b : ι → ℝ) : ∑ d, (a d : EReal) * (b d : EReal) = ((∑ d, a d * b d : ℝ) : EReal) := by
  rw [coe_sum]
  exact Finset.sum_congr rfl (fun d _ => (EReal.coe_mul _ _).symm)

/-- The maximum of finitely many (at least one) reals, folded from −∞, is real. -/
theorem foldmax_real [Nonempty ι] (σ : ι → ℝ) :
    ∃ μ : ℝ, (Finset.univ : Finset ι).fold max (⊥ : EReal) (fun k => (σ k : EReal)) = (μ : EReal) := by
  classical
  have key : ∀ s : Finset ι,
      (s = ∅ ∧ s.fold max (⊥ : EReal) (fun k => (σ k : EReal)) = ⊥)
        ∨ ∃ μ : ℝ, s.fold max (⊥ : EReal) (fun k => (σ k : EReal)) = (μ : EReal) := by
    intro s
    refine Finset.induction_on s ?_ ?_
    · exact Or.inl ⟨rfl, Finset.fold_empty⟩
    · intro a s ha ih
      refine Or.inr ?_
      rw [Finset.fold_insert ha]
      rcases ih with ⟨_, h⟩ | ⟨μ, h⟩
      · exact ⟨σ a, by rw [h, max_bot_right]⟩
      · exact ⟨max (σ a) μ, by rw [h]; exact (EReal.coe_strictMono.monotone.map_max).symm⟩
  rcases key Finset.univ with ⟨h, _⟩ | h
  · exact absurd h (Finset.univ_nonempty.ne_empty)
  · exact h

/-- … and so is its maximum with a real, or with −∞. -/
theorem max_real [Nonempty ι] (μ : ℝ) (σ : ι → ℝ) :
    ∃ μ' : ℝ, max (μ : EReal) ((Finset.univ : Finset ι).fold max (⊥ : EReal) (fun k => (σ k : EReal))) = (μ' : EReal) := by
  obtain ⟨m, h⟩ := foldmax_real σ
  exact ⟨max μ m, by rw [h]; exact (EReal.coe_strictMono.monotone.map_max).symm⟩

theorem max_real_first [Nonempty ι] (σ : ι → ℝ) :
    ∃ μ' : ℝ, max (⊥ : EReal) ((Finset.univ : Finset ι).fold max (⊥ : EReal) (fun k => (σ k : EReal))) = (μ' : EReal) := by
  obtain ⟨m, h⟩ := foldmax_real σ
  exact ⟨m, by rw [h, max_bot_left]⟩

/-- First tile: the factor exp(−∞ − μ') is 0, and it multiplies 0. -/
theorem rescale_first (μ' : ℝ) :
    Ideal.exp ((⊥ : EReal) - (μ' : EReal)) * (0 : EReal) = ((Real.exp (-μ') * 0 : ℝ) : EReal) := by
  rw [mul_zero, mul_zero, EReal.coe_zero]

/-- Later tiles: exp(μ − μ')·(exp(−μ)·Z) = exp(−μ')·Z. -/
theorem rescale (μ μ' Z : ℝ) :
    Ideal.exp ((μ : EReal) - (μ' : EReal)) * ((Real.exp (-μ) * Z : ℝ) : EReal) = ((Real.exp (-μ') * Z : ℝ) : EReal) := by
  rw [← EReal.coe_sub, Ideal.exp_coe, ← EReal.coe_mul, ← mul_assoc, ← Real.exp_add]
  congr 3
  ring

/-- A tile's contribution to the weight sum. -/
theorem tile_den (μ' : ℝ) (σ : ι → ℝ) :
    ∑ c, Ideal.exp ((σ c : EReal) - (μ' : EReal)) = ((Real.exp (-μ') * ∑ c, Real.exp (σ c) : ℝ) : EReal) := by
  rw [Finset.mul_sum, coe_sum]
  refine Finset.sum_congr rfl (fun c _ => ?_)
  rw [← EReal.coe_sub, Ideal.exp_coe, ← Real.exp_add]
  congr 2
  ring

/-- A tile's contribution to the weighted sum of a column. -/
theorem tile_num (μ' : ℝ) (σ v : ι → ℝ) :
    ∑ c, Ideal.exp ((σ c : EReal) - (μ' : EReal)) * (v c : EReal)
      = ((Real.exp (-μ') * ∑ c, Real.exp (σ c) * v c : ℝ) : EReal) := by
  rw [Finset.mul_sum, coe_sum]
  refine Finset.sum_congr rfl (fun c _ => ?_)
  rw [← EReal.coe_sub, Ideal.exp_coe, ← EReal.coe_mul, ← mul_assoc, ← Real.exp_add]
  congr 3
  ring

/-- Rescaled old sum plus the tile's. -/
theorem carry_add (μ' Z T : ℝ) :
    ((Real.exp (-μ') * Z : ℝ) : EReal) + ((Real.exp (-μ') * T : ℝ) : EReal) = ((Real.exp (-μ') * (Z + T) : ℝ) : EReal) := by
  rw [← EReal.coe_add, mul_add]

/-- The final quotient cancels exp(−μ). -/
theorem final_div (μ N Z : ℝ) (hZ : 0 < Z) :
    Ideal.div ((Real.exp (-μ) * N : ℝ) : EReal) ((Real.exp (-μ) * Z : ℝ) : EReal) = ((N / Z : ℝ) : EReal) := by
  have he : Real.exp (-μ) ≠ 0 := (Real.exp_pos _).ne'
  have hne : Real.exp (-μ) * Z ≠ 0 := mul_ne_zero he hZ.ne'
  rw [Ideal.div_coe hne, ← EReal.coe_mul]
  congr 1
  field_simp

/-- The two-pass form of a row: normalise the weights exp(s_k − M) by their sum (added to the initial 0),
    then take the weighted sum of a column. -/
theorem ref_row (M : ℝ) (σ v : ι → ℝ) (hpos : 0 < ∑ j, Real.exp (σ j)) :
    ∑ k, Ideal.div (Ideal.exp ((σ k : EReal) - (M : EReal))) ((0 : EReal) + ∑ j, Ideal.exp ((σ j : EReal) - (M : EReal))) * (v k : EReal)
      = (((∑ k, Real.exp (σ k) * v k) / (∑ k, Real.exp (σ k)) : ℝ) : EReal) := by
  have he : Real.exp (-M) ≠ 0 := (Real.exp_pos _).ne'
  have hne : Real.exp (-M) * ∑ j, Real.exp (σ j) ≠ 0 := mul_ne_zero he hpos.ne'
  rw [zero_add, tile_den, Finset.sum_div, coe_sum]
  refine Finset.sum_congr rfl (fun k _ => ?_)
  rw [Ideal.div_coe hne, ← EReal.coe_sub, Ideal.exp_coe, ← EReal.coe_mul, ← EReal.coe_mul, sub_eq_add_neg,
    Real.exp_add]
  congr 1
  field_simp

end Cert.Attn

end
-- ==== Proof.SpecLaws.lean ====
/-
  The scalar laws of one softmax row on the extended reals.

  For a row of REAL logits x the maximum M = max_k x_k is real and attained, so Z = Σ_k exp (x_k − M) is a
  real with Z ≥ 1 (the maximal entry contributes exp 0 = 1, every entry something ≥ 0). Then log Z is real and
  exp ((x_t − M) − log Z) = exp (x_t − M) / Z: the probability computed through the logarithm is the one
  computed by division, and after clipping to [ε, 1] it is a real in (0, 1]. For such a p,
  1 − p = |p − 1| and 0 − log p = −log p. The one-hot sum Σ_k (if k = t then x_k else 0) is x_t when t is a
  column, since the columns 0 … 999 have distinct 32-bit words.
-/
import proofs.«411597_j11123965296941_2_alg».proof.Proof.Spec
import proofs.«411597_j11123965296941_2_alg».proof.Proof.LibStreamSoftmax
import Mathlib.Analysis.SpecialFunctions.Exp
import Mathlib.Analysis.SpecialFunctions.Log.Basic

noncomputable section

namespace Cert.GHM

open Idealize.ShloMosaic

/-- The single-precision word of 1.0 denotes 1. -/
theorem ofBits_one : Ideal.ofBits .f32 0x3F800000#32 = (1 : EReal) := by
  simp [Ideal.ofBits, Ideal.ieee, -EReal.coe_mul]; norm_num

/-- ε is the real 14411519 · 2⁻⁵⁷ (about 1e-10). -/
theorem epsP_eq : epsP = (((14411519 : ℝ) * (2 : ℝ) ^ (-57 : ℤ) : ℝ) : EReal) := by
  simp [epsP, Ideal.ofBits, Ideal.ieee, -EReal.coe_mul]

/-- ε is a real strictly between 0 and 1. -/
theorem epsP_real : ∃ e : ℝ, epsP = (e : EReal) ∧ 0 < e ∧ e < 1 := by
  refine ⟨(14411519 : ℝ) * (2 : ℝ) ^ (-57 : ℤ), epsP_eq, ?_, ?_⟩
  · positivity
  · norm_num

/-- The maximum of a real row is real, bounds every entry and is attained. -/
theorem rowMax_real (x : Fin 1000 → EReal) (hx : ∀ k, ∃ r : ℝ, x k = (r : EReal)) :
    ∃ M : ℝ, rowMax x = (M : EReal) ∧ (∀ k, x k ≤ (M : EReal)) ∧ ∃ k, x k = (M : EReal) := by
  obtain ⟨k, -, hk⟩ := Finset.exists_max_image (Finset.univ : Finset (Fin 1000)) x
    ⟨⟨0, by norm_num⟩, Finset.mem_univ _⟩
  obtain ⟨M, hM⟩ := hx k
  have hle : ∀ j, x j ≤ rowMax x := fun j =>
    (Finset.le_fold_max _).mpr (Or.inr ⟨j, Finset.mem_univ _, le_rfl⟩)
  have hge : rowMax x ≤ x k := (Finset.fold_max_le _).mpr ⟨bot_le, fun j hj => hk j hj⟩
  have heq : rowMax x = (M : EReal) := by rw [← hM]; exact le_antisymm hge (hle k)
  exact ⟨M, heq, fun j => heq ▸ hle j, k, hM⟩

/-- With real entries r and real maximum M, Z is the real Σ exp (r_k − M). -/
theorem rowZ_eq (x : Fin 1000 → EReal) (r : Fin 1000 → ℝ) (M : ℝ)
    (hr : ∀ k, x k = (r k : EReal)) (hM : rowMax x = (M : EReal)) :
    rowZ x = ((∑ k : Fin 1000, Real.exp (r k - M) : ℝ) : EReal) := by
  unfold rowZ
  rw [Cert.Attn.coe_sum]
  refine Finset.sum_congr rfl (fun k _ => ?_)
  rw [hr k, hM, ← EReal.coe_sub, Ideal.exp_coe]

/-- Z is a real, and at least 1: the term of the maximal entry is exp 0 = 1, every term is ≥ 0. -/
theorem rowZ_real (x : Fin 1000 → EReal) (hx : ∀ k, ∃ r : ℝ, x k = (r : EReal)) :
    ∃ Z : ℝ, rowZ x = (Z : EReal) ∧ 1 ≤ Z := by
  obtain ⟨M, hM, -, k0, hk0⟩ := rowMax_real x hx
  choose r hr using hx
  refine ⟨∑ k : Fin 1000, Real.exp (r k - M), rowZ_eq x r M hr hM, ?_⟩
  have h0 : r k0 = M := by
    have := (hr k0).symm.trans hk0
    exact_mod_cast this
  have h1 : Real.exp (r k0 - M) = 1 := by rw [h0, sub_self, Real.exp_zero]
  calc (1 : ℝ) = Real.exp (r k0 - M) := h1.symm
    _ ≤ ∑ k : Fin 1000, Real.exp (r k - M) :=
        Finset.single_le_sum (f := fun k => Real.exp (r k - M))
          (fun k _ => (Real.exp_pos _).le) (Finset.mem_univ k0)

/-- The one-hot sum at a label that is a column picks that column's entry: distinct columns below 1000
    have distinct 32-bit words. -/
theorem pick_ofNat (x : Fin 1000 → EReal) (k : Fin 1000) : pick x (BitVec.ofNat 32 k.val) = x k := by
  unfold pick
  rw [Finset.sum_eq_single k]
  · rw [if_pos rfl]
  · intro j _ hjk
    rw [if_neg]
    intro h
    apply hjk
    have h' := congrArg BitVec.toNat h
    simp only [BitVec.toNat_ofNat] at h'
    apply Fin.ext
    have hj := j.isLt
    have hk := k.isLt
    omega
  · intro h
    exact absurd (Finset.mem_univ k) h

/-- Clipping a real gives a real in [ε, 1]. -/
theorem clipP_coe (q : ℝ) : ∃ p : ℝ, clipP (q : EReal) = (p : EReal) ∧ 0 < p ∧ p ≤ 1 := by
  obtain ⟨e, he, he0, -⟩ := epsP_real
  refine ⟨min 1 (max e q), ?_, ?_, min_le_left _ _⟩
  · unfold clipP
    rw [he, ← EReal.coe_one, ← EReal.coe_strictMono.monotone.map_max,
      ← EReal.coe_strictMono.monotone.map_min]
  · exact lt_min one_pos (lt_of_lt_of_le he0 (le_max_left _ _))

/-- The unclipped probability, both ways, is the real exp (r_k − M) / Z. -/
theorem ker_arg_eq (r M Z : ℝ) (hZ : 1 ≤ Z) :
    Ideal.exp (((r : EReal) - (M : EReal)) - Ideal.log (Z : EReal)) = ((Real.exp (r - M) / Z : ℝ) : EReal) := by
  have hpos : 0 < Z := lt_of_lt_of_le one_pos hZ
  rw [Ideal.log_coe, if_neg (not_le.mpr hpos), ← EReal.coe_sub, ← EReal.coe_sub, Ideal.exp_coe,
    Real.exp_sub, Real.exp_log hpos]

/-- … and the same number by division. -/
theorem ref_arg_eq (r M Z : ℝ) (hZ : 1 ≤ Z) :
    Ideal.div (Ideal.exp ((r : EReal) - (M : EReal))) (Z : EReal) = ((Real.exp (r - M) / Z : ℝ) : EReal) := by
  have hpos : 0 < Z := lt_of_lt_of_le one_pos hZ
  rw [Ideal.div_coe hpos.ne', ← EReal.coe_sub, Ideal.exp_coe, ← EReal.coe_mul, mul_one_div]

/-- For a real row the kernel's probability (through log Z) is the reference's (through division by Z). -/
theorem kerP_eq_refP (x : Fin 1000 → EReal) (hx : ∀ k, ∃ r : ℝ, x k = (r : EReal)) (k : Fin 1000) :
    kerP x (BitVec.ofNat 32 k.val) = refP x k := by
  obtain ⟨M, hM, -, -⟩ := rowMax_real x hx
  obtain ⟨Z, hZ, hZ1⟩ := rowZ_real x hx
  obtain ⟨r, hr⟩ := hx k
  unfold kerP refP
  rw [pick_ofNat, hr, hM, hZ, ker_arg_eq r M Z hZ1, ref_arg_eq r M Z hZ1]

/-- The reference's probability of a real row is a real in (0, 1]. -/
theorem refP_real (x : Fin 1000 → EReal) (hx : ∀ k, ∃ r : ℝ, x k = (r : EReal)) (k : Fin 1000) :
    ∃ p : ℝ, refP x k = (p : EReal) ∧ 0 < p ∧ p ≤ 1 := by
  obtain ⟨M, hM, -, -⟩ := rowMax_real x hx
  obtain ⟨Z, hZ, hZ1⟩ := rowZ_real x hx
  obtain ⟨r, hr⟩ := hx k
  unfold refP
  rw [hr, hM, hZ, ref_arg_eq r M Z hZ1]
  exact clipP_coe _

/-- For p ≤ 1, 1 − p is |p − 1|, the absolute value written max y (−y). -/
theorem one_sub_eq_abs (p : ℝ) (hp : p ≤ 1) :
    (1 : EReal) - (p : EReal) = max ((p : EReal) - 1) (-((p : EReal) - 1)) := by
  have h1 : (p : EReal) - 1 = ((p - 1 : ℝ) : EReal) := by rw [EReal.coe_sub, EReal.coe_one]
  have h2 : (1 : EReal) - (p : EReal) = ((1 - p : ℝ) : EReal) := by rw [EReal.coe_sub, EReal.coe_one]
  have h3 : -((p - 1 : ℝ) : EReal) = ((1 - p : ℝ) : EReal) := by rw [← EReal.coe_neg, neg_sub]
  rw [h1, h2, h3, max_eq_right]
  exact EReal.coe_le_coe_iff.mpr (by linarith)

/-- 0 − y is −y on the extended reals. -/
theorem zero_sub_eq_neg (y : EReal) : (0 : EReal) - y = -y := by
  rw [sub_eq_add_neg, zero_add]

end Cert.GHM

end
-- ==== Proof.Counts.lean ====
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import Idealize.ShloMosaic.Lib.ValueIdxRank1

open Idealize.ShloMosaic Idealize.ShloMosaic.ValueIdx
open scoped BigOperators

/-!
# A histogram two ways

Both programs put 131072 samples into 30 bins and count each bin. One counts with a dense one-hot
compare and a column sum: `counts[j] = Σ_b [bin_b = j]`, the indicators taken as floats. The other
starts from thirty zeros and adds one at each sample's bin index, a scatter-add. At the ideal
values both are exact sums of zeros and ones, and they are equal when every bin index lies in
[0, 30): then no negative index is wrapped and no update falls outside the thirty counts.

* `resultIdx?_eq_some_iff`: for these scatter dimension numbers, update `b` lands on element `i`
  exactly when the index word at `(b, 0)`, read signed, is `i`'s coordinate.
* `kernel_counts_apply`, `reference_counts_apply`: each count as `0 + Σ_b` of an indicator.
* `counts_eq`: the two histograms are equal under the range hypothesis.
* `bin_range`: a word clipped to [0, 29] satisfies the range hypothesis.
-/

namespace Cert.GHM.Counts

abbrev S_ : Shape := ⟨0, ![]⟩
abbrev S30 : Shape := ⟨1, ![30]⟩
abbrev S131072 : Shape := ⟨1, ![131072]⟩
abbrev S131072x1 : Shape := ⟨2, ![131072, 1]⟩
abbrev S1x30 : Shape := ⟨2, ![1, 30]⟩
abbrev S131072x30 : Shape := ⟨2, ![131072, 30]⟩

/-- For the scatter's dimension numbers (no window axes, the operand's one axis inserted, the index
    vector on the indices' second axis), update `b` lands on element `i` exactly when the index word
    at `(b, 0)`, read signed, is `i`'s coordinate. -/
theorem resultIdx?_eq_some_iff (d : ScatterDims S30 S131072x1 S131072)
    (hu : d.updateWindowDims = []) (hi : d.insertedWindowDims = [0])
    (hs : d.scatterDimsToOperandDims = [0]) (hv : d.indexVectorDim = 1)
    (idx : IVec S131072x1 32) (j : S131072.Idx) (i : S30.Idx) :
    d.resultIdx? j idx = some i ↔ (idx (ix2 (j 0) 0)).toInt = ((i 0).val : Int) := by
  obtain ⟨uw, iw, sd, iv, wf⟩ := d
  simp only at hu hi hs hv
  subst hu hi hs hv
  have hstart : ∀ a : Fin S30.rank,
      ScatterDims.start ⟨[], [0], [0], 1, wf⟩ j idx a = (idx (ix2 (j 0) 0)).toInt := by
    intro a
    have ha : a = 0 := Subsingleton.elim _ _
    subst ha
    unfold ScatterDims.start
    rw [dif_pos (show (0 : Fin S30.rank) ∈ ([0] : List (Fin S30.rank)) by decide)]
    refine congrArg BitVec.toInt (congrArg idx ?_)
    funext b
    match b with
    | ⟨0, _⟩ =>
      refine Fin.ext ?_
      unfold ScatterDims.siIdx
      rw [dif_neg (show ¬ ((0 : ℕ) = 1) by decide)]
      unfold ScatterDims.siCoord
      exact congrArg (fun q => (j q).val) (Subsingleton.elim _ _)
    | ⟨1, _⟩ =>
      refine Fin.ext ?_
      unfold ScatterDims.siIdx
      rw [dif_pos (by rfl)]
      exact (by decide : List.idxOf (0 : Fin S30.rank) ([0] : List (Fin S30.rank)) = 0)
  have hwin : ∀ a : Fin S30.rank, ScatterDims.window ⟨[], [0], [0], 1, wf⟩ j a = 0 := by
    intro a
    have ha : a = 0 := Subsingleton.elim _ _
    subst ha
    unfold ScatterDims.window
    rw [dif_neg (show (0 : Fin S30.rank) ∉ S30.kept [0] by decide)]
  unfold ScatterDims.resultIdx?
  simp only [hstart, hwin]
  have hi : (i 0).val < 30 := (i 0).isLt
  constructor
  · intro h
    split at h
    · rename_i hc
      have hv : ((idx (ix2 (j 0) 0)).toInt + ((0 : ℕ) : ℤ)).toNat = (i 0).val :=
        congrArg Fin.val (congrFun (Option.some.inj h) 0)
      have h0 := (hc 0).1
      omega
    · cases h
  · intro h
    have hc : ∀ a : Fin 1, 0 ≤ (idx (ix2 (j 0) 0)).toInt + ((0 : ℕ) : ℤ) ∧ (idx (ix2 (j 0) 0)).toInt + ((0 : ℕ) : ℤ) < ((![30] a : ℕ) : ℤ) := by
      intro a
      have ha : a = 0 := Subsingleton.elim _ _
      subst ha
      refine ⟨by omega, ?_⟩
      show (idx (ix2 (j 0) 0)).toInt + ((0 : ℕ) : ℤ) < ((30 : ℕ) : ℤ)
      omega
    rw [dif_pos hc]
    refine congrArg some (funext fun a => Fin.ext ?_)
    have ha : a = 0 := Subsingleton.elim _ _
    subst ha
    show ((idx (ix2 (j 0) 0)).toInt + ((0 : ℕ) : ℤ)).toNat = (i 0).val
    omega

/-- A one-bit equality test, converted unsigned to a float, is the indicator of equality. -/
theorem uitofp_cmpi_eq (x y : BitVec 32) :
    (FloatOps.uitofp (F := Ideal) .f32 (IntOp.cmpi .eq x y) : Ideal .f32) = if x = y then (1 : EReal) else 0 := by
  show (((IntOp.cmpi .eq x y).toNat : ℝ) : EReal) = _
  unfold IntOp.cmpi
  by_cases h : x = y
  · simp [h]
  · simp [h]

/-- Under a sign test that fails, the wrapped index is the index. -/
theorem wrap_apply (h8 : S_.BroadcastsInDim S131072 (![] : Fin 0 → Fin S131072.rank)) (bin : IVec S131072 32)
    (b : S131072.Idx) (h0 : 0 ≤ (bin b).toInt) :
    (select (cmpi .slt bin (broadcastInDim S131072 ![] h8 (constantI S_ 32 0#32)))
      (addi bin (broadcastInDim S131072 ![] h8 (constantI S_ 32 30#32))) bin) b = bin b := by
  show Scalar.select (IntOp.cmpi .slt (bin b) (0#32)) (IntOp.addi (bin b) (30#32)) (bin b) = bin b
  have hs : (bin b).slt 0#32 = false := by
    have h00 : (0#32 : BitVec 32).toInt = 0 := by decide
    simp only [BitVec.slt, h00, decide_eq_false_iff_not, not_lt]
    exact h0
  unfold Scalar.select IntOp.cmpi
  simp [hs]

/-- The kernel's count of bin `j`: the sum over the samples of the indicator that the sample's word is `j`'s. -/
theorem kernel_counts_apply
    (h1 : S131072x1.BroadcastsInDim S131072x30 (![0, 1] : Fin 2 → Fin S131072x30.rank))
    (h2 : S131072.BroadcastsInDim S131072x1 (![0] : Fin 1 → Fin S131072x1.rank))
    (h3 : S1x30.BroadcastsInDim S131072x30 (![0, 1] : Fin 2 → Fin S131072x30.rank))
    (h4 : S30.BroadcastsInDim S1x30 (![1] : Fin 1 → Fin S1x30.rank))
    (h5 : S131072x30.ReducesTo [0] S30) (h6 : 0 < S_.numel)
    (bin : IVec S131072 32) (j : S30.Idx) :
    Host.reduceAdd (F := Ideal)
      (uitofp (F := Ideal) .f32 (cmpi .eq
        (broadcastInDim S131072x30 ![0, 1] h1 (broadcastInDim S131072x1 ![0] h2 bin))
        (broadcastInDim S131072x30 ![0, 1] h3 (broadcastInDim S1x30 ![1] h4 (iotaInDim S30 32 0)))))
      (constant (F := Ideal) S_ .f32 0x00000000#32) h5 h6 j
    = 0 + ∑ k : Fin 131072, if bin (ix1 k) = BitVec.ofNat 32 (j 0).val then (1 : EReal) else 0 := by
  have hR : S131072x30.Reduces [0] S30 := by decide
  rw [hostReduceAdd_apply, Ideal.hostReduceAdd_single h5 hR]
  refine congrArg₂ (· + ·) Ideal.ofBits_zero_f32 ?_
  · show ∑ k : Fin 131072, _ = _
    refine Finset.sum_congr rfl fun k _ => ?_
    show FloatOps.uitofp (F := Ideal) .f32 (IntOp.cmpi .eq _ _) = _
    rw [uitofp_cmpi_eq]
    rw [broadcastInDim_apply _ h1 _ _ (ix2 k 0) (by intro a; match a with | ⟨0, _⟩ => rfl | ⟨1, _⟩ => rfl),
      broadcastInDim_apply _ h2 _ _ (ix1 k) (by intro a; match a with | ⟨0, _⟩ => rfl),
      broadcastInDim_apply _ h3 _ _ (ix2 0 (j 0)) (by intro a; match a with | ⟨0, _⟩ => rfl | ⟨1, _⟩ => rfl),
      broadcastInDim_apply _ h4 _ _ (ix1 (j 0)) (by intro a; match a with | ⟨0, _⟩ => rfl)]
    rfl

/-- A small natural as a 32-bit word reads signed as itself. -/
theorem toInt_ofNat_small (n : ℕ) (hn : n < 30) : (BitVec.ofNat 32 n).toInt = (n : ℤ) := by
  rw [BitVec.toInt_eq_toNat_cond, BitVec.toNat_ofNat]
  have h1 : n % 2 ^ 32 = n := Nat.mod_eq_of_lt (by omega)
  rw [h1]
  split_ifs with h
  · rfl
  · omega

/-- The reference's count of bin `j`: the sum over the samples of the indicator that the sample's
    word, read signed, is `j`'s coordinate (the indices being in range, the wrap of negative
    indices does nothing and no update is dropped). -/
theorem reference_counts_apply (d : ScatterDims S30 S131072x1 S131072)
    (hu : d.updateWindowDims = []) (hi : d.insertedWindowDims = [0])
    (hs : d.scatterDimsToOperandDims = [0]) (hv : d.indexVectorDim = 1)
    (h2 : S131072.BroadcastsInDim S131072x1 (![0] : Fin 1 → Fin S131072x1.rank))
    (h7 : S_.BroadcastsInDim S30 (![] : Fin 0 → Fin S30.rank))
    (h8 : S_.BroadcastsInDim S131072 (![] : Fin 0 → Fin S131072.rank))
    (bin : IVec S131072 32) (hbin : ∀ b : S131072.Idx, 0 ≤ (bin b).toInt ∧ (bin b).toInt < 30)
    (j : S30.Idx) :
    Host.scatterAdd (F := Ideal) d
      (broadcastInDim S30 ![] h7 (constant (F := Ideal) S_ .f32 0x00000000#32))
      (broadcastInDim S131072x1 ![0] h2
        (select (cmpi .slt bin (broadcastInDim S131072 ![] h8 (constantI S_ 32 0#32)))
          (addi bin (broadcastInDim S131072 ![] h8 (constantI S_ 32 30#32))) bin))
      (broadcastInDim S131072 ![] h8 (constant (F := Ideal) S_ .f32 0x3F800000#32)) j
    = 0 + ∑ b : S131072.Idx, if (bin b).toInt = ((j 0).val : ℤ) then (1 : EReal) else 0 := by
  show Ideal.hostScatterAdd d _ _ _ j = _
  unfold Ideal.hostScatterAdd
  refine congrArg₂ (· + ·) Ideal.ofBits_zero_f32 ?_
  rw [Finset.sum_filter]
  refine Finset.sum_congr rfl fun b _ => ?_
  refine if_congr ?_ Ideal.ofBits_one_f32 rfl
  rw [resultIdx?_eq_some_iff d hu hi hs hv,
    broadcastInDim_apply _ h2 _ _ b (by intro a; match a with | ⟨0, _⟩ => rfl),
    wrap_apply h8 bin b (hbin b).1]

/-- The histogram two ways: the dense one-hot compare summed down the samples, and the scatter-add of
    ones at the bin indices, agree at the ideal instance when every bin index is in [0, 30). -/
theorem counts_eq
    (h1 : S131072x1.BroadcastsInDim S131072x30 (![0, 1] : Fin 2 → Fin S131072x30.rank))
    (h2 : S131072.BroadcastsInDim S131072x1 (![0] : Fin 1 → Fin S131072x1.rank))
    (h3 : S1x30.BroadcastsInDim S131072x30 (![0, 1] : Fin 2 → Fin S131072x30.rank))
    (h4 : S30.BroadcastsInDim S1x30 (![1] : Fin 1 → Fin S1x30.rank))
    (h5 : S131072x30.ReducesTo [0] S30) (h6 : 0 < S_.numel)
    (h7 : S_.BroadcastsInDim S30 (![] : Fin 0 → Fin S30.rank))
    (h8 : S_.BroadcastsInDim S131072 (![] : Fin 0 → Fin S131072.rank))
    (d : ScatterDims S30 S131072x1 S131072)
    (hu : d.updateWindowDims = []) (hi : d.insertedWindowDims = [0])
    (hs : d.scatterDimsToOperandDims = [0]) (hv : d.indexVectorDim = 1)
    (bin : IVec S131072 32) (hbin : ∀ b : S131072.Idx, 0 ≤ (bin b).toInt ∧ (bin b).toInt < 30) :
    Host.reduceAdd (F := Ideal)
      (uitofp (F := Ideal) .f32 (cmpi .eq
        (broadcastInDim S131072x30 ![0, 1] h1 (broadcastInDim S131072x1 ![0] h2 bin))
        (broadcastInDim S131072x30 ![0, 1] h3 (broadcastInDim S1x30 ![1] h4 (iotaInDim S30 32 0)))))
      (constant (F := Ideal) S_ .f32 0x00000000#32) h5 h6
    = Host.scatterAdd (F := Ideal) d
      (broadcastInDim S30 ![] h7 (constant (F := Ideal) S_ .f32 0x00000000#32))
      (broadcastInDim S131072x1 ![0] h2
        (select (cmpi .slt bin (broadcastInDim S131072 ![] h8 (constantI S_ 32 0#32)))
          (addi bin (broadcastInDim S131072 ![] h8 (constantI S_ 32 30#32))) bin))
      (broadcastInDim S131072 ![] h8 (constant (F := Ideal) S_ .f32 0x3F800000#32)) := by
  funext j
  rw [kernel_counts_apply h1 h2 h3 h4 h5 h6 bin j,
    reference_counts_apply d hu hi hs hv h2 h7 h8 bin hbin j]
  refine congrArg (fun t : EReal => 0 + t) ?_
  refine (Fintype.sum_equiv idxEquiv1 _ _ fun b => ?_).symm
  have hb : ix1 (idxEquiv1 b) = b := (eq_ix1 b).symm
  rw [hb]
  refine if_congr ?_ rfl rfl
  have hj : (j 0).val < 30 := (j 0).isLt
  constructor
  · intro h
    refine BitVec.eq_of_toInt_eq ?_
    rw [h, toInt_ofNat_small _ hj]
  · intro h
    rw [h, toInt_ofNat_small _ hj]

/-- Clipping a 32-bit word to [0, 29] (signed maximum with 0, then signed minimum with 29) leaves a
    word that, read signed, lies in [0, 30). -/
theorem bin_range (h8 : S_.BroadcastsInDim S131072 (![] : Fin 0 → Fin S131072.rank)) (y : IVec S131072 32)
    (b : S131072.Idx) :
    0 ≤ ((minsi (broadcastInDim S131072 ![] h8 (id (constantI S_ 32 29#32)))
        (maxsi (broadcastInDim S131072 ![] h8 (id (constantI S_ 32 0#32))) y)) b).toInt
    ∧ ((minsi (broadcastInDim S131072 ![] h8 (id (constantI S_ 32 29#32)))
        (maxsi (broadcastInDim S131072 ![] h8 (id (constantI S_ 32 0#32))) y)) b).toInt < 30 := by
  show 0 ≤ (IntOp.minsi (29#32) (IntOp.maxsi (0#32) (y b))).toInt
    ∧ (IntOp.minsi (29#32) (IntOp.maxsi (0#32) (y b))).toInt < 30
  generalize y b = v
  unfold IntOp.minsi IntOp.maxsi
  simp only [BitVec.slt]
  have h29 : (29#32 : BitVec 32).toInt = 29 := by decide
  have h0 : (0#32 : BitVec 32).toInt = 0 := by decide
  split_ifs <;> simp only [decide_eq_true_eq, h29, h0] at * <;> omega

end Cert.GHM.Counts
-- ==== Proof.Bridge.lean ====
/-
  The two programs compute one number.

  Under the precondition every logit is a real number and every label is a column k < 1000. Then, row by row:
    • the kernel's clipped probability exp ((x_t − M) − log Z) and the reference's exp (x_t − M) / Z agree, because
      Z = Σ exp (x_k − M) is a real number ≥ 1 (so exp (a − log Z) = exp a / Z) and the one-hot sum picks x_t;
    • that common value p is a real number in (0, 1], so 1 − p = |p − 1| and 0 − log p = −log p;
    • both programs clip the bin index to [0, 29], where the one-hot column sums and the scatter-add of ones count
      the same samples.
  Everything after the counts is the same operations in both programs, applied to equal arguments.
-/
import proofs.«411597_j11123965296941_2_alg».proof.Proof.KValue
import proofs.«411597_j11123965296941_2_alg».proof.Proof.KPayload
import proofs.«411597_j11123965296941_2_alg».proof.Proof.RefTail
import proofs.«411597_j11123965296941_2_alg».proof.Proof.RefP
import proofs.«411597_j11123965296941_2_alg».proof.Proof.SpecLaws
import proofs.«411597_j11123965296941_2_alg».proof.Proof.Counts

set_option maxRecDepth 16384

noncomputable section

namespace Cert.Bridge

open Idealize.ShloMosaic Idealize.ShloMosaic.ValueIdx

/-- The logits, the labels and `acc_sum`, at the ideal instance. -/
abbrev Logits := Cert.KernelIdeal.S131072x1000.Idx → Elt Ideal .f32
abbrev Labels := Cert.KernelIdeal.S131072.Idx → Elt Ideal .i32
abbrev Acc := Cert.KernelIdeal.S30.Idx → Elt Ideal .f32

variable (X : Logits) (T : Labels) (A : Acc)

/-- Row b of the logits. -/
abbrev row (b : Fin 131072) : Fin 1000 → EReal := fun k => X (ix2 b k)

/-! ## The two spellings of the gradient norm, at an entry (any float family) -/

/-- Entry i of 1 − p. -/
theorem gOf_apply {F : FTy → Type} [FloatOps F] (p : Cert.KernelIdeal.S131072.Idx → Elt F .f32) (i : Cert.KernelIdeal.S131072.Idx) :
    Cert.KernelIdeal.Hand.gOf (F := F) p i = FloatOps.subf (FloatOps.ofBits .f32 0x3F800000#32) (p i) := rfl

/-- Entry i of |p − 1|. -/
theorem absSub_apply {F : FTy → Type} [FloatOps F]
    (h : Cert.ReferenceIdeal.S_.BroadcastsInDim Cert.ReferenceIdeal.S131072 (![] : Fin 0 → Fin Cert.ReferenceIdeal.S131072.rank))
    (p : Cert.ReferenceIdeal.S131072.Idx → Elt F .f32) (i : Cert.ReferenceIdeal.S131072.Idx) :
    Host.absf (subf p (broadcastInDim Cert.ReferenceIdeal.S131072 ![] h (constant Cert.ReferenceIdeal.S_ .f32 0x3F800000#32))) i
      = FloatOps.hostAbsf (FloatOps.subf (p i) (FloatOps.ofBits .f32 0x3F800000#32)) := rfl

/-- Entry i of −log p, as the host computes it. -/
theorem negLog_apply {F : FTy → Type} [FloatOps F] (p : Cert.ReferenceIdeal.S131072.Idx → Elt F .f32)
    (i : Cert.ReferenceIdeal.S131072.Idx) :
    Host.negf (Host.log p) i = FloatOps.hostNegf (FloatOps.hostUnary .log (p i)) := rfl

/-! ## The kernel's p and ℓ, entry by entry -/

theorem lt1024 (b : Fin 131072) : b.val % 1024 < 1024 := Nat.mod_lt _ (by decide)

/-- Row b % 1024 of block b / 1024 is row b. -/
theorem rowsOf_row (b : Fin 131072) (k : Fin 1000) :
    Cert.KernelIdeal.Hand.rowsOf X (b.val / 1024) (ix2 (⟨b.val % 1024, lt1024 b⟩ : Fin 1024) k) = X (ix2 b k) := by
  have hb := b.isLt
  have e : (⟨(b.val / 1024 * 1024 + b.val % 1024) % 131072, Nat.mod_lt _ (by decide)⟩ : Fin 131072) = b :=
    Fin.ext (by show (b.val / 1024 * 1024 + b.val % 1024) % 131072 = b.val; omega)
  exact congrArg (fun a : Fin 131072 => X (ix2 a k)) e

theorem labelsOf_row (b : Fin 131072) :
    Cert.KernelIdeal.Hand.labelsOf T (b.val / 1024) (ix1 (⟨b.val % 1024, lt1024 b⟩ : Fin 1024)) = T (ix1 b) := by
  have hb := b.isLt
  have e : (⟨(b.val / 1024 * 1024 + b.val % 1024) % 131072, Nat.mod_lt _ (by decide)⟩ : Fin 131072) = b :=
    Fin.ext (by show (b.val / 1024 * 1024 + b.val % 1024) % 131072 = b.val; omega)
  exact congrArg (fun a : Fin 131072 => T (ix1 a)) e

/-- Entry b of the kernel's p is the row function of row b and label b. -/
theorem pArr_apply (b : Fin 131072) :
    Cert.KernelIdeal.Hand.pArr (F := Ideal) X T (ix1 b) = Cert.GHM.kerP (row X b) (T (ix1 b)) := by
  have hb := b.isLt
  rw [Cert.KernelIdeal.Hand.pArr_at X T (b.val / 1024) ⟨b.val % 1024, lt1024 b⟩ (ix1 b)
    (by show b.val = b.val / 1024 * 1024 + b.val % 1024; omega),
    Cert.KernelIdeal.Hand.k0_pay1_apply, labelsOf_row]
  exact congrArg (fun x => Cert.GHM.kerP x (T (ix1 b))) (funext fun k => rowsOf_row X b k)

/-- Entry b of the kernel's ℓ is 0 − log of entry b of its p. -/
theorem lArr_apply (b : Fin 131072) :
    Cert.KernelIdeal.Hand.lArr (F := Ideal) X T (ix1 b)
      = (0 : EReal) - Ideal.log (Cert.KernelIdeal.Hand.pArr (F := Ideal) X T (ix1 b)) := by
  have hb := b.isLt
  rw [Cert.KernelIdeal.Hand.lArr_at X T (b.val / 1024) ⟨b.val % 1024, lt1024 b⟩ (ix1 b)
    (by show b.val = b.val / 1024 * 1024 + b.val % 1024; omega),
    Cert.KernelIdeal.Hand.k0_pay2_apply,
    Cert.KernelIdeal.Hand.pArr_at X T (b.val / 1024) ⟨b.val % 1024, lt1024 b⟩ (ix1 b)
      (by show b.val = b.val / 1024 * 1024 + b.val % 1024; omega)]

/-! ## Under the precondition -/

variable (hX : ∀ i : Cert.KernelIdeal.S131072x1000.Idx, ∃ r : ℝ, X i = (r : EReal))
  (hT : ∀ i : Cert.KernelIdeal.S131072.Idx, ∃ k : Fin 1000, T i = BitVec.ofNat 32 k.val)

/-- The reference's gathered probabilities. -/
abbrev pRef : Cert.KernelIdeal.S131072.Idx → Elt Ideal .f32 := Cert.ReferenceIdeal.Read.val_main_v26 (F := Ideal) X T

include hX hT in
/-- The kernel's p is the reference's gathered array. -/
theorem pArr_eq : Cert.KernelIdeal.Hand.pArr (F := Ideal) X T = pRef X T := by
  funext i
  obtain ⟨b, rfl⟩ : ∃ b : Fin 131072, i = ix1 b := ⟨i 0, eq_ix1 i⟩
  obtain ⟨k, hk⟩ := hT (ix1 b)
  rw [pArr_apply, hk, Cert.GHM.kerP_eq_refP (row X b) (fun j => hX _) k]
  exact (Cert.ReferenceIdeal.Hand.val_main_v26_apply X T b k hk).symm

include hX hT in
/-- Every entry of p is a real number in (0, 1]. -/
theorem pRef_real (i : Cert.KernelIdeal.S131072.Idx) : ∃ p : ℝ, pRef X T i = (p : EReal) ∧ 0 < p ∧ p ≤ 1 := by
  obtain ⟨b, rfl⟩ : ∃ b : Fin 131072, i = ix1 b := ⟨i 0, eq_ix1 i⟩
  obtain ⟨k, hk⟩ := hT (ix1 b)
  obtain ⟨p, hp, h0, h1⟩ := Cert.GHM.refP_real (row X b) (fun j => hX _) k
  exact ⟨p, (Cert.ReferenceIdeal.Hand.val_main_v26_apply X T b k hk).trans hp, h0, h1⟩

include hX hT in
/-- g: 1 − p is |p − 1|. -/
theorem g_eq : Cert.KernelIdeal.Hand.gOf (F := Ideal) (pRef X T) = Cert.ReferenceIdeal.Read.val_main_v29 (F := Ideal) X T := by
  rw [Cert.ReferenceIdeal.Hand.g_eq]
  funext i
  obtain ⟨p, hp, -, h1⟩ := pRef_real X T hX hT i
  refine (gOf_apply (F := Ideal) (pRef X T) i).trans (Eq.trans ?_ (absSub_apply (F := Ideal) _ (pRef X T) i).symm)
  show Ideal.ofBits .f32 0x3F800000#32 - pRef X T i
    = max (pRef X T i - Ideal.ofBits .f32 0x3F800000#32) (-(pRef X T i - Ideal.ofBits .f32 0x3F800000#32))
  rw [hp, Cert.GHM.ofBits_one]
  exact Cert.GHM.one_sub_eq_abs p h1

include hX hT in
/-- ℓ: 0 − log p is −log p. -/
theorem l_eq : Cert.KernelIdeal.Hand.lArr (F := Ideal) X T = Cert.ReferenceIdeal.Read.val_main_v70 (F := Ideal) X T := by
  rw [Cert.ReferenceIdeal.Hand.l_eq]
  funext i
  obtain ⟨b, rfl⟩ : ∃ b : Fin 131072, i = ix1 b := ⟨i 0, eq_ix1 i⟩
  rw [lArr_apply, pArr_eq X T hX hT]
  refine Eq.trans ?_ (negLog_apply (F := Ideal) (pRef X T) (ix1 b)).symm
  generalize pRef X T (ix1 b) = y
  exact Cert.GHM.zero_sub_eq_neg _

/-- The histogram: the one-hot column sums are the scatter-add, on bins clipped to [0, 29]. -/
theorem counts_eq (g : Cert.KernelIdeal.S131072.Idx → Elt Ideal .f32) :
    Cert.KernelIdeal.Hand.countsOf (F := Ideal) (Cert.KernelIdeal.Hand.binOf (F := Ideal) g)
      = Cert.ReferenceIdeal.Hand.rcountsOf (F := Ideal) (Cert.KernelIdeal.Hand.binOf (F := Ideal) g) :=
  Cert.GHM.Counts.counts_eq _ _ _ _ _ _ _ _ Cert.ReferenceIdeal.scatter_S30_S131072x1_S131072_n_0_0_1 rfl rfl rfl rfl _
    (fun b => Cert.GHM.Counts.bin_range _ _ b)

include hX hT in
/-- THE RESULTS AGREE: the kernel program's tail of its p and ℓ is the reference's result. -/
theorem result_eq :
    Cert.KernelIdeal.Hand.ktail (F := Ideal) (Cert.KernelIdeal.Hand.pArr (F := Ideal) X T) (Cert.KernelIdeal.Hand.lArr (F := Ideal) X T) A
      = Cert.ReferenceIdeal.Read.val_main_v74 (F := Ideal) X T A := by
  rw [Cert.ReferenceIdeal.Hand.result_eq, Cert.ReferenceIdeal.Hand.counts_eq, Cert.ReferenceIdeal.Hand.bin_eq,
    ← g_eq X T hX hT, ← l_eq X T hX hT, ← counts_eq, pArr_eq X T hX hT]
  rfl

end Cert.Bridge

end
-- ==== Proof.lean ====
/-
  The certificate: a multi-class gradient-harmonised loss, its Pallas kernel against its jnp reference.

  Each sample b has 1000 logits x_b and a label t_b. Both programs compute the clipped true-class softmax
  probability p_b, the gradient norm g_b = 1 − p_b = |p_b − 1|, a histogram of g over 30 bins, per-bin weights from
  the histogram and `acc_sum`, and the weighted mean of −log p_b. The kernel computes p_b and −log p_b inside one
  pallas_call over blocks of 1024 samples (through logarithms, picking the true logit by a one-hot sum) and does the
  rest on the host with a dense one-hot histogram; the reference computes a full softmax, gathers, and scatter-adds.

  Under the precondition (finite logits and `acc_sum`; labels in [0, 1000)) the two results are equal as extended reals:
  `Bridge.result_eq`. The three frames: the kernel programs' by the launch of the one pipeline with the host
  operations that follow it; the reference's by its run, read back one operation at a time.
-/
import proofs.«411597_j11123965296941_2_alg».proof.Defs
import proofs.«411597_j11123965296941_2_alg».proof.Proof.Gen.Kernel
import proofs.«411597_j11123965296941_2_alg».proof.Proof.Gen.KernelIdeal
import proofs.«411597_j11123965296941_2_alg».proof.Proof.Gen.ReferenceIdeal
import proofs.«411597_j11123965296941_2_alg».proof.Proof.Gen.Pre_finite_inputs
import proofs.«411597_j11123965296941_2_alg».proof.Proof.KFrameBits
import proofs.«411597_j11123965296941_2_alg».proof.Proof.KValue
import proofs.«411597_j11123965296941_2_alg».proof.Proof.RefRun
import proofs.«411597_j11123965296941_2_alg».proof.Proof.PreFacts
import proofs.«411597_j11123965296941_2_alg».proof.Proof.Bridge

noncomputable section

namespace Cert.Proof

open Idealize.ShloMosaic Idealize.ShloMosaic.TcCoe Idealize.SL.Sem

/-- The kernel program as printed runs to the end, faults nowhere, and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing: the idealized kernel is the printed text read on the extended reals. -/
theorem preserves : Cert.preserves_Kernel_KernelIdeal := trivial

/-- From memories that agree on the arguments and satisfy the precondition, both idealized programs run, and end with
    the same loss. -/
theorem algebraic : Cert.algebraic_KernelIdeal_ReferenceIdeal := by
  intro m ρ m' ρ' hpre hagree
  refine ⟨fun c => Cert.KernelIdeal.Hand.ktail (F := Ideal)
      (Cert.KernelIdeal.Hand.pArr (m ((c : Thread Cert.KernelIdeal.nD Cert.KernelIdeal.τ).loc Cert.KernelIdeal.main_arg0))
        (m ((c : Thread Cert.KernelIdeal.nD Cert.KernelIdeal.τ).loc Cert.KernelIdeal.main_arg1)))
      (Cert.KernelIdeal.Hand.lArr (m ((c : Thread Cert.KernelIdeal.nD Cert.KernelIdeal.τ).loc Cert.KernelIdeal.main_arg0))
        (m ((c : Thread Cert.KernelIdeal.nD Cert.KernelIdeal.τ).loc Cert.KernelIdeal.main_arg1)))
      (m ((c : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  obtain ⟨hX, hT⟩ := Cert.Pre_finite_inputs.Hand.of_pre _ _ _ (hpre c)
  rw [(hagree c).1, (hagree c).2.1, (hagree c).2.2]
  exact (Cert.Bridge.result_eq _ _ _ hX hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
